-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_
  bcast_S_S16x11008 : S_.BroadcastsInDim S16x11008 (![] : Fin 0 → Fin S16x11008.rank)
  reducesTo_S16x11008_S_d0_1 : S16x11008.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S11008x16 .f32) (main_arg8 : FVec F S16x11008 .f32) (main_arg9 : FVec F S4096x16 .f32) (main_v33 : IVec S_ 1) : IVec S_ 1 :=
  let main_v34 : FVec F S11008x16 .f32 := Host.absf main_arg7
  let main_cst_12 : FVec F S_ .f32 := constant S_ .f32 0x7F800000#32
  let main_v35 : FVec F S11008x16 .f32 := broadcastInDim S11008x16 ![] bcast_S_S11008x16 main_cst_12
  let main_v36 : IVec S11008x16 1 := cmpf .olt main_v34 main_v35
  let main_c_13 : IVec S_ 1 := constantI S_ 1 1#1
  let main_v37 : IVec S_ 1 := (fun x v => Host.reduce IntOp.andi x v reducesTo_S11008x16_S_d0_1 h_S_) main_v36 main_c_13
  let main_v38 : IVec S_ 1 := andi main_v33 main_v37
  let main_v39 : FVec F S16x11008 .f32 := Host.absf main_arg8
  let main_cst_14 : FVec F S_ .f32 := constant S_ .f32 0x7F800000#32
  let main_v40 : FVec F S16x11008 .f32 := broadcastInDim S16x11008 ![] bcast_S_S16x11008 main_cst_14
  let main_v41 : IVec S16x11008 1 := cmpf .olt main_v39 main_v40
  let main_c_15 : IVec S_ 1 := constantI S_ 1 1#1
  let main_v42 : IVec S_ 1 := (fun x v => Host.reduce IntOp.andi x v reducesTo_S16x11008_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S11008x16 .f32 := Host.absf main_arg5
  let main_cst_8 : FVec F S_ .f32 := constant S_ .f32 0x7F800000#32
  let main_v25 : FVec F S11008x16 .f32 := broadcastInDim S11008x16 ![] bcast_S_S11008x16 main_cst_8
  let main_v26 : IVec S11008x16 1 := cmpf .olt main_v24 main_v25
  let main_c_9 : IVec S_ 1 := constantI S_ 1 1#1
  let main_v27 : IVec S_ 1 := (fun x v => Host.reduce IntOp.andi x v reducesTo_S11008x16_S_d0_1 h_S_) main_v26 main_c_9
  let main_v28 : IVec S_ 1 := andi main_v23 main_v27
  let main_v29 : FVec F S16x4096 .f32 := Host.absf main_arg6
  let main_cst_10 : FVec F S_ .f32 := constant S_ .f32 0x7F800000#32
  let main_v30 : FVec F S16x4096 .f32 := broadcastInDim S16x4096 ![] bcast_S_S16x4096 main_cst_10
  let main_v31 : IVec S16x4096 1 := cmpf .olt main_v29 main_v30
  let main_c_11 : IVec S_ 1 := constantI S_ 1 1#1
  let main_v32 : IVec S_ 1 := (fun x v => Host.reduce IntOp.andi x v reducesTo_S16x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x2048x4096 .f32) (main_arg1 : FVec F S11008x4096 .f32) (main_arg2 : FVec F S11008x4096 .f32) (main_arg3 : FVec F S4096x11008 .f32) (main_arg4 : FVec F S16x4096 .f32) (main_arg5 : FVec F S11008x16 .f32) (main_arg6 : FVec F S16x4096 .f32) (main_arg7 : FVec F S11008x16 .f32) (main_arg8 : FVec F S16x11008 .f32) (main_arg9 : FVec F S4096x16 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_arg7 main_arg8 main_arg9 main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S4096x4096 : Shape := ⟨2, ![4096, 4096]⟩
abbrev S256x4096 : Shape := ⟨2, ![256, 4096]⟩
abbrev S16x256 : Shape := ⟨2, ![16, 256]⟩
abbrev S256x256 : Shape := ⟨2, ![256, 256]⟩
abbrev S256x16 : Shape := ⟨2, ![256, 16]⟩
abbrev S4096x256 : Shape := ⟨2, ![4096, 256]⟩

abbrev nBuf : Space → Nat
  | .hbm => 27
  | .vmem => 25
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S4096x4096, .f32⟩
  | .hbm, ⟨11, _⟩ => ⟨S4096x4096, .bf16⟩
  | .hbm, ⟨12, _⟩ => ⟨S11008x4096, .bf16⟩
  | .hbm, ⟨13, _⟩ => ⟨S11008x4096, .bf16⟩
  | .hbm, ⟨14, _⟩ => ⟨S4096x11008, .bf16⟩
  | .hbm, ⟨15, _⟩ => ⟨S16x4096, .bf16⟩
  | .hbm, ⟨16, _⟩ => ⟨S16x4096, .bf16⟩
  | .hbm, ⟨17, _⟩ => ⟨S16x11008, .bf16⟩
  | .hbm, ⟨18, _⟩ => ⟨S16x11008, .f32⟩
  | .hbm, ⟨19, _⟩ => ⟨S16x11008, .bf16⟩
  | .hbm, ⟨20, _⟩ => ⟨S16x11008, .f32⟩
  | .hbm, ⟨21, _⟩ => ⟨S16x11008, .bf16⟩
  | .hbm, ⟨22, _⟩ => ⟨S16x4096, .f32⟩
  | .hbm, ⟨23, _⟩ => ⟨S16x4096, .bf16⟩
  | .hbm, ⟨24, _⟩ => ⟨S4096x11008, .bf16⟩
  | .hbm, ⟨25, _⟩ => ⟨S4096x4096, .f32⟩
  | .hbm, ⟨26, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S16x4096, .bf16⟩
  | .local _ .vmem, ⟨7, _⟩ => ⟨S16x4096, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S16x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S4096x256, .bf16⟩
  | .local _ .vmem, ⟨17, _⟩ => ⟨S4096x256, .bf16⟩
  | .local _ .vmem, ⟨18, _⟩ => ⟨S16x256, .bf16⟩
  | .local _ .vmem, ⟨19, _⟩ => ⟨S16x256, .bf16⟩
  | .local _ .vmem, ⟨20, _⟩ => ⟨S16x4096, .bf16⟩
  | .local _ .vmem, ⟨21, _⟩ => ⟨S256x4096, .f32⟩
  | .local _ .vmem, ⟨22, _⟩ => ⟨S256x4096, .f32⟩
  | .local _ .vmem, ⟨23, _⟩ => ⟨S256x4096, .f32⟩
  | .local _ .vmem, ⟨24, _⟩ => ⟨S256x16, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22

abbrev nD : Nat := 1
abbrev τ : Topo := Topo.v7x

variable {F : FTy → Type} [FloatOps F]

abbrev grid0 : Pipeline.Grid := ⟨2, ![43, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![16, 43], ![false, false]⟩

def k1_cond2 (i : grid1.Coords) : BitVec 1 :=
  let arg1 : BitVec 32 := BitVec.ofNat 32 (i 1).val
  let c42_i32 : BitVec 32 := 42#32
  let v21 : BitVec 1 := Scalar.cmpi .eq arg1 c42_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S16x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S2x2048x4096_S4096x4096 : S2x2048x4096.ShapeCasts S4096x4096
  bitsLt_bf16_f32 : FTy.bits .bf16 < FTy.bits .f32
  transposes_S11008x16_S16x11008_1_0 : S11008x16.Transposes [1, 0] S16x11008
  transposes_S4096x16_S16x4096_1_0 : S4096x16.Transposes [1, 0] S16x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  packedbf16_S256x256_S256x256_0_0 : (Rect.unit (s := S256x256) ![0, 0] S256x256.size inb_S256x256_S256x256_0_0).PackedRows (EltTy.packing .bf16)
  inb_S256x16_S256x16_0_0 : ∀ a, (![0, 0] : Fin 2 → Nat) a + S256x16.size a ≤ S256x16.size a
  h_S256x16 : 0 < S256x16.numel
  shapeCasts_S256x16_S256x16 : S256x16.ShapeCasts S256x16
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S4096x4096_S2x2048x4096 : S4096x4096.ShapeCasts S2x2048x4096
  dot_S256x4096_S256x4096_S256x256_1_1_0_0_n_n_wf : DotDims.WF S256x4096 S256x4096 S256x256 [1] [1] [0] [0] [] []
  dot_S256x4096_S16x4096_S256x16_1_1_0_0_n_n_wf : DotDims.WF S256x4096 S16x4096 S256x16 [1] [1] [0] [0] [] []
  dot_S256x16_S16x256_S256x256_1_0_0_1_n_n_wf : DotDims.WF S256x16 S16x256 S256x256 [1] [0] [0] [1] [] []
  dot_S256x256_S4096x256_S256x4096_1_1_0_0_n_n_wf : DotDims.WF S256x256 S4096x256 S256x4096 [1] [1] [0] [0] [] []
  dot_S256x256_S16x256_S256x16_1_1_0_0_n_n_wf : DotDims.WF S256x256 S16x256 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .bf16 = 32 ∨ (Rect.block (s := S16x4096) S16x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x4096.size a
  hwx0_4 : ∀ i : grid0.Coords, EltTy.bits .bf16 = 32 ∨ (Rect.block (s := S16x4096) S16x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x11008.size a
  hwx0_5 : ∀ i : grid0.Coords, EltTy.bits .bf16 = 32 ∨ (Rect.block (s := S16x11008) S16x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x11008.size a
  hwx0_6 : ∀ i : grid0.Coords, EltTy.bits .bf16 = 32 ∨ (Rect.block (s := S16x11008) S16x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S4096x11008.size a
  hwx0_7 : ∀ i : grid0.Coords, EltTy.bits .bf16 = 32 ∨ (Rect.block (s := S4096x11008) S256x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S4096x11008.size a
  hwx1_0 : ∀ i : grid1.Coords, EltTy.bits .bf16 = 32 ∨ (Rect.block (s := S4096x11008) S256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x11008.size a
  hwx1_1 : ∀ i : grid1.Coords, EltTy.bits .bf16 = 32 ∨ (Rect.block (s := S4096x11008) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x11008.size a
  hwx1_2 : ∀ i : grid1.Coords, EltTy.bits .bf16 = 32 ∨ (Rect.block (s := S16x11008) S16x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x4096.size a ≤ S16x4096.size a
  hwx1_3 : ∀ i : grid1.Coords, EltTy.bits .bf16 = 32 ∨ (Rect.block (s := S16x4096) S16x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x256_S256x256_1_0_0_1_n_n : DotDims S256x16 S16x256 S256x256 where
  lhsContracting := [1]
  rhsContracting := [0]
  lhsNonContracting := [0]
  rhsNonContracting := [1]
  lhsBatch := []
  rhsBatch := []
  wf := dot_S256x16_S16x256_S256x256_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x256_S16x256_S256x16_1_1_0_0_n_n : DotDims S256x256 S16x256 S256x16 where
  lhsContracting := [1]
  rhsContracting := [1]
  lhsNonContracting := [0]
  rhsNonContracting := [0]
  lhsBatch := []
  rhsBatch := []
  wf := dot_S256x256_S16x256_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S16x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S16x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v14) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S16x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S256x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S16x4096 : Shape := ⟨2, ![16, 4096]⟩
abbrev S11008x16 : Shape := ⟨2, ![11008, 16]⟩
abbrev S16x11008 : Shape := ⟨2, ![16, 11008]⟩
abbrev S4096x16 : Shape := ⟨2, ![4096, 16]⟩
abbrev S2x2048x11008 : Shape := ⟨3, ![2, 2048, 11008]⟩
abbrev S2x2048x16 : Shape := ⟨3, ![2, 2048, 16]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S16x4096, .f32⟩
  | .hbm, ⟨5, _⟩ => ⟨S11008x16, .f32⟩
  | .hbm, ⟨6, _⟩ => ⟨S16x4096, .f32⟩
  | .hbm, ⟨7, _⟩ => ⟨S11008x16, .f32⟩
  | .hbm, ⟨8, _⟩ => ⟨S16x11008, .f32⟩
  | .hbm, ⟨9, _⟩ => ⟨S4096x16, .f32⟩
  | .hbm, ⟨10, _⟩ => ⟨S2x2048x11008, .f32⟩
  | .hbm, ⟨11, _⟩ => ⟨S2x2048x16, .f32⟩
  | .hbm, ⟨12, _⟩ => ⟨S2x2048x11008, .f32⟩
  | .hbm, ⟨13, _⟩ => ⟨S_, .f32⟩
  | .hbm, ⟨14, _⟩ => ⟨S2x2048x11008, .f32⟩
  | .hbm, ⟨15, _⟩ => ⟨S2x2048x11008, .f32⟩
  | .hbm, ⟨16, _⟩ => ⟨S2x2048x11008, .f32⟩
  | .hbm, ⟨17, _⟩ => ⟨S2x2048x11008, .f32⟩
  | .hbm, ⟨18, _⟩ => ⟨S2x2048x16, .f32⟩
  | .hbm, ⟨19, _⟩ => ⟨S2x2048x11008, .f32⟩
  | .hbm, ⟨20, _⟩ => ⟨S_, .f32⟩
  | .hbm, ⟨21, _⟩ => ⟨S2x2048x11008, .f32⟩
  | .hbm, ⟨22, _⟩ => ⟨S2x2048x11008, .f32⟩
  | .hbm, ⟨23, _⟩ => ⟨S2x2048x11008, .f32⟩
  | .hbm, ⟨24, _⟩ => ⟨S2x2048x11008, .f32⟩
  | .hbm, ⟨25, _⟩ => ⟨S2x2048x11008, .f32⟩
  | .hbm, ⟨26, _⟩ => ⟨S_, .f32⟩
  | .hbm, ⟨27, _⟩ => ⟨S2x2048x11008, .f32⟩
  | .hbm, ⟨28, _⟩ => ⟨S2x2048x11008, .f32⟩
  | .hbm, ⟨29, _⟩ => ⟨S_, .f32⟩
  | .hbm, ⟨30, _⟩ => ⟨S2x2048x11008, .f32⟩
  | .hbm, ⟨31, _⟩ => ⟨S2x2048x11008, .f32⟩
  | .hbm, ⟨32, _⟩ => ⟨S2x2048x11008, .f32⟩
  | .hbm, ⟨33, _⟩ => ⟨S2x2048x11008, .f32⟩
  | .hbm, ⟨34, _⟩ => ⟨S2x2048x4096, .f32⟩
  | .hbm, ⟨35, _⟩ => ⟨S2x2048x16, .f32⟩
  | .hbm, ⟨36, _⟩ => ⟨S2x2048x4096, .f32⟩
  | .hbm, ⟨37, _⟩ => ⟨S_, .f32⟩
  | .hbm, ⟨38, _⟩ => ⟨S2x2048x4096, .f32⟩
  | .hbm, ⟨39, _⟩ => ⟨S2x2048x4096, .f32⟩
  | .hbm, ⟨40, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]

class Facts₀ : Prop where
  bcast_S_S2x2048x11008 : S_.BroadcastsInDim S2x2048x11008 (![] : Fin 0 → Fin S2x2048x11008.rank)
  bcast_S_S2x2048x4096 : S_.BroadcastsInDim S2x2048x4096 (![] : Fin 0 → Fin S2x2048x4096.rank)
  dot_S2x2048x4096_S11008x4096_S2x2048x11008_2_1_01_0_n_n_wf : DotDims.WF S2x2048x4096 S11008x4096 S2x2048x11008 [2] [1] [0, 1] [0] [] []
  dot_S2x2048x4096_S16x4096_S2x2048x16_2_1_01_0_n_n_wf : DotDims.WF S2x2048x4096 S16x4096 S2x2048x16 [2] [1] [0, 1] [0] [] []
  dot_S2x2048x16_S11008x16_S2x2048x11008_2_1_01_0_n_n_wf : DotDims.WF S2x2048x16 S11008x16 S2x2048x11008 [2] [1] [0, 1] [0] [] []
  dot_S2x2048x11008_S4096x11008_S2x2048x4096_2_1_01_0_n_n_wf : DotDims.WF S2x2048x11008 S4096x11008 S2x2048x4096 [2] [1] [0, 1] [0] [] []
  dot_S2x2048x11008_S16x11008_S2x2048x16_2_1_01_0_n_n_wf : DotDims.WF S2x2048x11008 S16x11008 S2x2048x16 [2] [1] [0, 1] [0] [] []
  dot_S2x2048x16_S4096x16_S2x2048x4096_2_1_01_0_n_n_wf : DotDims.WF S2x2048x16 S4096x16 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x4096_S16x4096_S2x2048x16_2_1_01_0_n_n : DotDims S2x2048x4096 S16x4096 S2x2048x16 where
  lhsContracting := [2]
  rhsContracting := [1]
  lhsNonContracting := [0, 1]
  rhsNonContracting := [0]
  lhsBatch := []
  rhsBatch := []
  wf := dot_S2x2048x4096_S16x4096_S2x2048x16_2_1_01_0_n_n_wf
def dot_S2x2048x16_S11008x16_S2x2048x11008_2_1_01_0_n_n : DotDims S2x2048x16 S11008x16 S2x2048x11008 where
  lhsContracting := [2]
  rhsContracting := [1]
  lhsNonContracting := [0, 1]
  rhsNonContracting := [0]
  lhsBatch := []
  rhsBatch := []
  wf := dot_S2x2048x16_S11008x16_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf
def dot_S2x2048x11008_S16x11008_S2x2048x16_2_1_01_0_n_n : DotDims S2x2048x11008 S16x11008 S2x2048x16 where
  lhsContracting := [2]
  rhsContracting := [1]
  lhsNonContracting := [0, 1]
  rhsNonContracting := [0]
  lhsBatch := []
  rhsBatch := []
  wf := dot_S2x2048x11008_S16x11008_S2x2048x16_2_1_01_0_n_n_wf
def dot_S2x2048x16_S4096x16_S2x2048x4096_2_1_01_0_n_n : DotDims S2x2048x16 S4096x16 S2x2048x4096 where
  lhsContracting := [2]
  rhsContracting := [1]
  lhsNonContracting := [0, 1]
  rhsNonContracting := [0]
  lhsBatch := []
  rhsBatch := []
  wf := dot_S2x2048x16_S4096x16_S2x2048x4096_2_1_01_0_n_n_wf

class Facts : Prop extends Facts₀ where

variable [Facts]
-- ==== Proof.BitsRegion0.lean ====
/-
  Region 0 of the program (the gate/up projections with their low-rank corrections, SiLU and the product): the
  pipeline's proof data and the body obligation, at any float instance.

  At a grid point the body reads its seven input blocks whole — a 256-row block of the activations, the matching
  256-row blocks of the two weight matrices, the two rank-16 factors whole, and the 256-column blocks of the two
  transposed rank-16 factors — and writes the 256×256 output block once, whole: the block is ONE pure function of
  the seven input blocks. Nothing is carried between points, so the invariant is the scoped rest with the generator
  register, untouched.
-/
import proofs.«180041_j26250840113719_1_alg».proof.Proof.Gen.Kernel.Launch
import proofs.«180041_j26250840113719_1_alg».proof.Proof.Gen.Kernel.Skeleton
import proofs.«180041_j26250840113719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched the block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched the block index has not moved since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is not
    fetched the block index has not moved since the point before. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, through its whole rectangle -/

abbrev rX : Rect S256x4096 := Rect.unit (s := S256x4096) ![0, 0] S256x4096.size inb_S256x4096_S256x4096_0_0
abbrev rA : Rect S16x4096 := Rect.unit (s := S16x4096) ![0, 0] S16x4096.size inb_S16x4096_S16x4096_0_0
abbrev rB : Rect S16x256 := Rect.unit (s := S16x256) ![0, 0] S16x256.size inb_S16x256_S16x256_0_0
abbrev rO : Rect S256x256 := Rect.unit (s := S256x256) ![0, 0] S256x256.size inb_S256x256_S256x256_0_0

/-- The output block after the body, from the seven input blocks: one store of the whole block. -/
def out0_7 (x0 x1 x2 : Vec F S256x4096 .bf16) (x3 x4 : Vec F S16x4096 .bf16) (x5 x6 : Vec F S16x256 .bf16) : Vec F S256x256 .bf16 :=
  View.canon [⟨rO, k0_pay1 (View.ld x0 rX) (View.ld x1 rX) (View.ld x2 rX) (View.ld x3 rA) (View.ld x4 rA) (View.ld x5 rB) (View.ld x6 rB)⟩]

/-- The one store covers the block. -/
theorem cover0_7 (p0 : Vec F S256x256 .bf16) (y : S256x256.Idx) :
    ∃ pc ∈ ([⟨rO, p0⟩] : List (View.Piece (Elt F) S256x256 .bf16)), y ∈ pc.1.set :=
  View.cover_of_tiled [⟨rO, p0⟩] S256x256.size (by rfl) y

/-! ## The body's triple -/

set_option maxHeartbeats 1000000 in
/-- The body on whole staging memrefs, the inputs' at contents `x·` and the output's at anything, runs to the continuation
    holding the inputs' as they were and the output's at `out0_7` of the inputs'. -/
theorem sound_kernel0 (c : Dev nD) (E : Set ℕ) (i : grid0.Coords)
    (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S16x4096 .bf16) (harg5 : arg5.IsWhole) (arg6 : Memref sig .tc .vmem S16x4096 .bf16) (harg6 : arg6.IsWhole) (arg7 : Memref sig .tc .vmem S16x256 .bf16) (harg7 : arg7.IsWhole) (arg8 : Memref sig .tc .vmem S16x256 .bf16) (harg8 : arg8.IsWhole) (arg9 : Memref sig .tc .vmem S256x256 .bf16) (harg9 : arg9.IsWhole)
    (x0 x1 x2 : Vec F S256x4096 .bf16) (x3 x4 : Vec F S16x4096 .bf16) (x5 x6 : Vec F S16x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__mlp_act_kernel i arg2 harg2 arg3 harg3 arg4 harg4 arg5 harg5 arg6 harg6 arg7 harg7 arg8 harg8 arg9 harg9) K := by
  simp only [cc0__mlp_act_kernel_eq_skeleton]; unfold cc0__mlp_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t` each input's
    buffer at its block and the output's at `out0_7` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.BitsRegion1Conds.lean ====
/-
  Region 1 of the program (the down projection with its low-rank correction, accumulated over the 43 tiles of the
  hidden axis): what its three control cases share.

  The grid is 16 row blocks by 43 hidden tiles, the tile index innermost. At tile 0 the body clears its two
  accumulators (a 256×4096 one for the main product, a 256×16 one for the rank-16 factor); at every tile it adds the
  tile's contribution to both; at tile 42 it adds the low-rank correction to the main accumulator and stores the
  output block. So a point is in one of three cases — first tile, middle tile, last tile — decided from its position
  modulo 43, and the output window is untouched except at the last tile, where the pipeline writes it back.
-/
import proofs.«180041_j26250840113719_1_alg».proof.Proof.Gen.Kernel.Launch
import proofs.«180041_j26250840113719_1_alg».proof.Proof.Gen.Kernel.Skeleton
import proofs.«180041_j26250840113719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, from the grid coordinates -/

/-- "This is the first tile": the tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 43). -/
theorem hcond1_0 : ∀ t : Fin cfg1.N, cond1_0 (grid1.coords t) ↔ t.val % 43 = 0 :=
  (by decide +kernel : ∀ t : Fin grid1.N, cond1_0 (grid1.coords t) ↔ t.val % 43 = 0)

/-- "This is the last tile": the tile coordinate is 42. -/
abbrev cond1_1 (i : grid1.Coords) : Prop := k1_cond2 i = 1#1
/-- It holds at the points ≡ 42 (mod 43). -/
theorem hcond1_1 : ∀ t : Fin cfg1.N, cond1_1 (grid1.coords t) ↔ t.val % 43 = 42 :=
  (by decide +kernel : ∀ t : Fin grid1.N, cond1_1 (grid1.coords t) ↔ t.val % 43 = 42)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first tile the body stores nothing into the output window, and the pipeline does not write it back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- The same at a middle tile. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a last tile the body stores the output block: the window is live. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S256x4096 .f32 := (Memref.whole cc1_stg4_0 : Memref sig .tc .vmem S256x4096 .f32).view
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x4096 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S256x4096 .f32 := Memref.whole cc1_scratch0
abbrev scM1_1 : Memref sig .tc .vmem S256x16 .f32 := Memref.whole cc1_scratch1
abbrev VS1_0 : View sig .tc .vmem S256x4096 .f32 := scM1_0.view
abbrev VS1_1 : View sig .tc .vmem S256x16 .f32 := scM1_1.view

/-- The class invariant with the two accumulators split out of the scoped rest, each owned at some contents; every
    other scoped buffer (region 0's staging buffers) stays unopened. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [Idealize.SL.BI.bigSepL_cons_cons, Idealize.SL.BI.bigSepL_singleton, scM1_0, scM1_1, owns_whole]; try rfl

end Cert.Kernel.Frame

end
-- ==== Proof.BitsRegion1RunA.lean ====
/-
  Region 1, first tile of a row block: both accumulators are cleared, then the tile's contribution is added to each; the output window is not touched.
-/
import proofs.«180041_j26250840113719_1_alg».proof.Proof.BitsRegion1Conds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case of a first tile: on whole memrefs — the four inputs' at their contents — it runs to the continuation
    holding the inputs' as they were and each buffer it stored into with its stores written, as pieces, last store first.
    The pieces are found by running the body; the two branch conditions are decided by the case's hypotheses. -/
noncomputable def kernelRun1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i)
    (x0 : Vec F S256x256 .bf16) (x1 : Vec F S4096x256 .bf16) (x2 : Vec F S16x256 .bf16) (x3 : Vec F S16x4096 .bf16) :
    Σ' (L4 : List (View.Piece (Elt F) S256x4096 .f32)) (LS0 : List (View.Piece (Elt F) S256x4096 .f32)), { LS1 : List (View.Piece (Elt F) S256x16 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__mlp_down_kernel i arg2 harg2 arg3 harg3 arg4 harg4 arg5 harg5 arg6 harg6 arg7 harg7 arg8 harg8) K } := by
  refine ⟨[], ?_, ?_, fun xi4 E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Frame

end
-- ==== Proof.BitsRegion1RunB.lean ====
/-
  Region 1, middle tile: the tile's contribution is added to each accumulator, over what the tile before left; the output window is not touched.
-/
import proofs.«180041_j26250840113719_1_alg».proof.Proof.BitsRegion1RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case of a middle tile: on whole memrefs — the four inputs' at their contents — it runs to the continuation
    holding the inputs' as they were and each buffer it stored into with its stores written, as pieces, last store first.
    The pieces are found by running the body; the two branch conditions are decided by the case's hypotheses. -/
noncomputable def kernelRun1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i)
    (x0 : Vec F S256x256 .bf16) (x1 : Vec F S4096x256 .bf16) (x2 : Vec F S16x256 .bf16) (x3 : Vec F S16x4096 .bf16) (xs0 : Vec F S256x4096 .f32) (xs1 : Vec F S256x16 .f32) :
    Σ' (L4 : List (View.Piece (Elt F) S256x4096 .f32)) (LS0 : List (View.Piece (Elt F) S256x4096 .f32)), { LS1 : List (View.Piece (Elt F) S256x16 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__mlp_down_kernel i arg2 harg2 arg3 harg3 arg4 harg4 arg5 harg5 arg6 harg6 arg7 harg7 arg8 harg8) K } := by
  refine ⟨[], ?_, ?_, fun xi4 E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Frame

end
-- ==== Proof.BitsRegion1RunC.lean ====
/-
  Region 1, last tile: the tile's contribution is added to each accumulator, then the low-rank correction (the rank-16 accumulator times the transposed factor) is added to the main accumulator's contents and the sum stored as the output block.
-/
import proofs.«180041_j26250840113719_1_alg».proof.Proof.BitsRegion1RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case of a last tile: on whole memrefs — the four inputs' at their contents — it runs to the continuation
    holding the inputs' as they were and each buffer it stored into with its stores written, as pieces, last store first.
    The pieces are found by running the body; the two branch conditions are decided by the case's hypotheses. -/
noncomputable def kernelRun1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i)
    (x0 : Vec F S256x256 .bf16) (x1 : Vec F S4096x256 .bf16) (x2 : Vec F S16x256 .bf16) (x3 : Vec F S16x4096 .bf16) (xs0 : Vec F S256x4096 .f32) (xs1 : Vec F S256x16 .f32) :
    Σ' (L4 : List (View.Piece (Elt F) S256x4096 .f32)) (LS0 : List (View.Piece (Elt F) S256x4096 .f32)), { LS1 : List (View.Piece (Elt F) S256x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__mlp_down_kernel i arg2 harg2 arg3 harg3 arg4 harg4 arg5 harg5 arg6 harg6 arg7 harg7 arg8 harg8) K } := by
  refine ⟨?_, ?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Frame

end
-- ==== Proof.BitsRegion1.lean ====
/-
  Region 1 (the down projection accumulated over the 43 hidden tiles): the accumulation point by point, the invariant
  that carries the two accumulators from a point to the next, the pipeline's proof data and the body obligation, at
  any float instance.

  After the body at point n the two accumulators hold: at a first tile, the tile's contribution over the cleared
  accumulators; at every other tile, the tile's contribution over what point n - 1 left. The output block is stored
  at a last tile only, from that tile's accumulators. Before the first point the accumulators hold anything (the
  first point is a first tile and clears them); after any point they hold exactly the contents just described, and
  that is what the invariant says.
-/
import proofs.«180041_j26250840113719_1_alg».proof.Proof.BitsRegion1RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile leaves in the main accumulator: its stores cover it. -/
theorem scover1_A_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  (y : S256x4096.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S256x4096.size (by sl_kernel_rfl) y
/-- What A first tile leaves in the main accumulator: its stores read back. -/
def sout1_A_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  : Vec F S256x4096 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1)
/-- A first tile leaves in the rank-16 accumulator: its stores cover it. -/
theorem scover1_A_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  (y : S256x16.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S256x16.size (by sl_kernel_rfl) y
/-- What A first tile leaves in the rank-16 accumulator: its stores read back. -/
def sout1_A_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  : Vec F S256x16 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1)
/-- What A first tile leaves in the output window's buffer, read back from its stores (none: a placeholder nothing consults, the window being idle and not written back there). -/
def out1_A_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  : Vec F S256x4096 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- A middle tile leaves in the main accumulator: its stores cover it. -/
theorem scover1_B_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x4096.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S256x4096.size (by sl_kernel_rfl) y
/-- What A middle tile leaves in the main accumulator: its stores read back. -/
def sout1_B_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)
/-- A middle tile leaves in the rank-16 accumulator: its stores cover it. -/
theorem scover1_B_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x16.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S256x16.size (by sl_kernel_rfl) y
/-- What A middle tile leaves in the rank-16 accumulator: its stores read back. -/
def sout1_B_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x16 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)
/-- What A middle tile leaves in the output window's buffer, read back from its stores (none: a placeholder nothing consults, the window being idle and not written back there). -/
def out1_B_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0 xs1).1)

/-- A last tile leaves in the main accumulator: its stores cover it. -/
theorem scover1_C_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x4096.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S256x4096.size (by sl_kernel_rfl) y
/-- What A last tile leaves in the main accumulator: its stores read back. -/
def sout1_C_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)
/-- A last tile leaves in the rank-16 accumulator: its stores cover it. -/
theorem scover1_C_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x16.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S256x16.size (by sl_kernel_rfl) y
/-- What A last tile leaves in the rank-16 accumulator: its stores read back. -/
def sout1_C_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x16 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)
/-- What A last tile leaves in the output window's buffer, read back from its stores. -/
def out1_C_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)

/-- A last tile's store covers the output block. -/
theorem cover1_C_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x4096.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S256x4096.size (by sl_kernel_rfl) y

/-! ## What the buffers hold after each point -/

/-- THE ACCUMULATION: after the body at position `n`, the output window's buffer, the main accumulator and the rank-16
    accumulator — the case of position `n` (first, middle or last tile, by `n` modulo 43) run at the point's memrefs and
    input blocks, a middle or last tile over what position `n - 1` left in the two accumulators. -/
def outsAt1 (c : Dev nD) : (n : ℕ) → n < cfg1.N → Vec F S256x4096 .f32 × Vec F S256x4096 .f32 × Vec F S256x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 43 = 0 then
      if h1 : (n + 1) % 43 = 42 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 43 = 42 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- At a first tile. -/
theorem outsAt1_A (c : Dev nD) (t : Fin cfg1.N) (h0 : t.val % 43 = 0) (h1 : ¬t.val % 43 = 42) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle tile: over what the point before left. -/
theorem outsAt1_B (c : Dev nD) (t : Fin cfg1.N) (h0 : ¬t.val % 43 = 0) (h1 : ¬t.val % 43 = 42) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt1_C (c : Dev nD) (t : Fin cfg1.N) (h0 : ¬t.val % 43 = 0) (h1 : t.val % 43 = 42) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the class invariant (every scoped buffer that is no staging buffer of this
    region at anything, the generator register at some state); afterwards the same with the two accumulators at what the
    point before left in them. -/
def PhiS1 (c : Dev nD) : (n : ℕ) → n ≤ cfg1.N → sProp 𝕄
  | 0, _ => Pipeline.ΦA spec1 c
  | n + 1, hn => iprop(((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r)) := rfl

theorem PhiS1_pos (c : Dev nD) (n : ℕ) (h : n ≤ cfg1.N) (hz : n ≠ 0) :
    PhiS1 V c n h = iprop(((owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-! ## The pipeline's proof data -/

/-- The proof data of pipeline 1 on core `c`: the arrays as the region finds them; after the body at point `t` each input's
    buffer at its block and the output's at the accumulation's first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. Its position modulo 43 says which case it is in; the inputs' memrefs hold their blocks; the
    invariant hands the body the two accumulators at what the point before left (at anything before the first point, which
    is a first tile and clears them) and takes them back at this point's contents; at a first or middle tile the output
    window's buffer is handed back as found, at a last tile it holds the stored block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val % 43 = 0
  · by_cases h1 : t.val % 43 = 42
    · exfalso; omega
    · -- a first tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 43 = 42
    · -- a last tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1; (try dsimp only)
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ )
              · unfold owns; iexists _; isplitr
                swap; · iexact HS1
                ipureintro; exact View.read_writes_of_cover _ _ _ _ _ (scover1_C_1 c _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ )
    · -- a middle tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1; (try dsimp only)
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ )
              · unfold owns; iexists _; isplitr
                swap; · iexact HS1
                ipureintro; exact View.read_writes_of_cover _ _ _ _ _ (scover1_B_1 c _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 688 := N_1; omega)

end Cert.Kernel.Frame

end
-- ==== Proof.BitsRun.lean ====
/-
  The run of the whole program at any float instance: @main is fourteen host operations (a reshape, ten casts, three
  transposes), region 0, region 1, and a closing reshape. Between two of these four items every unscoped buffer
  holds named contents: the launch memory, then what the host operations make of it, then the same with each region's
  arrays at what the pipeline's write-backs leave. Every weakly fair execution terminates in a state whose unscoped
  buffers hold the last of these contents; the arguments among them are as launched, since no item writes one.
-/
import proofs.«180041_j26250840113719_1_alg».proof.Proof.BitsRegion0
import proofs.«180041_j26250840113719_1_alg».proof.Proof.BitsRegion1
import proofs.«180041_j26250840113719_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the fourteen host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
/-- After the closing reshape. -/
abbrev W4 : Dev nD → Valuation τ sig (Elt F) := fun c => StableHlo.after hostOps2 (W3 m c)

/-- A buffer that no host operation writes and that is no array of either region holds its launch contents to the end. -/
theorem W4_kept (c : Dev nD) (r : Ref sig .tc) (h2 : r ∉ (hostOps2_W : List (Ref sig .tc))) (h1 : ∀ w, Pipeline.arrRef spec1 w ≠ r)
    (h0 : ∀ w, Pipeline.arrRef spec0 w ≠ r) (hh : r ∉ (hostOps0_W : List (Ref sig .tc))) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r h1
    _ = W1 m c (Proc.devRef .tc r) := W2_of_ne m c r h0
    _ = W0 m c (Proc.devRef .tc r) := StableHlo.after_of_writes_sub hostOps0 _ hostOps0_writes hh
    _ = m ((c : Thread nD τ).loc r) := rfl

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the write-backs leave;
    the generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the write-backs leave;
    the generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN: at the compiled mesh, from any memory with zero counters, every weakly fair execution of @main on the
    TensorCores terminates, nothing faulting, and in every final state each unscoped buffer holds the last boundary's
    contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The frame -/

/-- THE FRAME: every argument array ends as launched. No host operation writes an argument and none is an array of
    either region, so the last contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide))⟩) (run_main m ρ)

/-- The result array and the arguments at the end: the result holds the last contents `W4` at it. -/
theorem run_result : θ_run defs (onTc (τ := τ) (main (F := F))) ⟨m, fun _ => 0, ρ⟩ (fun r => ∀ c : Dev nD,
      r.2.mem ((c.tc : Thread nD τ).loc main_v16) = W4 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v16 (by decide)),
    (h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide))⟩) (run_main m ρ)

end Cert.Kernel.Frame

end
-- ==== Proof.IdealRegion0.lean ====
/-
  Region 0 of the program (the gate/up projections with their low-rank corrections, SiLU and the product): the
  pipeline's proof data and the body obligation, at any float instance.

  At a grid point the body reads its seven input blocks whole — a 256-row block of the activations, the matching
  256-row blocks of the two weight matrices, the two rank-16 factors whole, and the 256-column blocks of the two
  transposed rank-16 factors — and writes the 256×256 output block once, whole: the block is ONE pure function of
  the seven input blocks. Nothing is carried between points, so the invariant is the scoped rest with the generator
  register, untouched.
-/
import proofs.«180041_j26250840113719_1_alg».proof.Proof.Gen.KernelIdeal.Launch
import proofs.«180041_j26250840113719_1_alg».proof.Proof.Gen.KernelIdeal.Skeleton
import proofs.«180041_j26250840113719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, which the run instantiates
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched the block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched the block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched the block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched the block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is not
    fetched the block index has not moved since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is not
    fetched the block index has not moved since the point before. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read, and the output written, through its whole rectangle -/

abbrev rX : Rect S256x4096 := Rect.unit (s := S256x4096) ![0, 0] S256x4096.size inb_S256x4096_S256x4096_0_0
abbrev rA : Rect S16x4096 := Rect.unit (s := S16x4096) ![0, 0] S16x4096.size inb_S16x4096_S16x4096_0_0
abbrev rB : Rect S16x256 := Rect.unit (s := S16x256) ![0, 0] S16x256.size inb_S16x256_S16x256_0_0
abbrev rO : Rect S256x256 := Rect.unit (s := S256x256) ![0, 0] S256x256.size inb_S256x256_S256x256_0_0

/-- The output block after the body, from the seven input blocks: one store of the whole block. -/
def out0_7 (x0 x1 x2 : Vec F S256x4096 .bf16) (x3 x4 : Vec F S16x4096 .bf16) (x5 x6 : Vec F S16x256 .bf16) : Vec F S256x256 .bf16 :=
  View.canon [⟨rO, k0_pay1 (View.ld x0 rX) (View.ld x1 rX) (View.ld x2 rX) (View.ld x3 rA) (View.ld x4 rA) (View.ld x5 rB) (View.ld x6 rB)⟩]

/-- The one store covers the block. -/
theorem cover0_7 (p0 : Vec F S256x256 .bf16) (y : S256x256.Idx) :
    ∃ pc ∈ ([⟨rO, p0⟩] : List (View.Piece (Elt F) S256x256 .bf16)), y ∈ pc.1.set :=
  View.cover_of_tiled [⟨rO, p0⟩] S256x256.size (by rfl) y

/-! ## The body's triple -/

set_option maxHeartbeats 1000000 in
/-- The body on whole staging memrefs, the inputs' at contents `x·` and the output's at anything, runs to the continuation
    holding the inputs' as they were and the output's at `out0_7` of the inputs'. -/
theorem sound_kernel0 (c : Dev nD) (E : Set ℕ) (i : grid0.Coords)
    (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S16x4096 .bf16) (harg5 : arg5.IsWhole) (arg6 : Memref sig .tc .vmem S16x4096 .bf16) (harg6 : arg6.IsWhole) (arg7 : Memref sig .tc .vmem S16x256 .bf16) (harg7 : arg7.IsWhole) (arg8 : Memref sig .tc .vmem S16x256 .bf16) (harg8 : arg8.IsWhole) (arg9 : Memref sig .tc .vmem S256x256 .bf16) (harg9 : arg9.IsWhole)
    (x0 x1 x2 : Vec F S256x4096 .bf16) (x3 x4 : Vec F S16x4096 .bf16) (x5 x6 : Vec F S16x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6)) -∗ K ⟨⟩))
      ⊢ wp frame (wpE (defs₀ (F := F)) Variants.none c none) E (cc0__mlp_act_kernel i arg2 harg2 arg3 harg3 arg4 harg4 arg5 harg5 arg6 harg6 arg7 harg7 arg8 harg8 arg9 harg9) K := by
  simp only [cc0__mlp_act_kernel_eq_skeleton]; unfold cc0__mlp_act_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them; after the body at point `t` each input's
    buffer at its block and the output's at `out0_7` of the input blocks; the invariant the scoped rest and the generator
    register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealRegion1Conds.lean ====
/-
  Region 1 of the program (the down projection with its low-rank correction, accumulated over the 43 tiles of the
  hidden axis): what its three control cases share.

  The grid is 16 row blocks by 43 hidden tiles, the tile index innermost. At tile 0 the body clears its two
  accumulators (a 256×4096 one for the main product, a 256×16 one for the rank-16 factor); at every tile it adds the
  tile's contribution to both; at tile 42 it adds the low-rank correction to the main accumulator and stores the
  output block. So a point is in one of three cases — first tile, middle tile, last tile — decided from its position
  modulo 43, and the output window is untouched except at the last tile, where the pipeline writes it back.
-/
import proofs.«180041_j26250840113719_1_alg».proof.Proof.Gen.KernelIdeal.Launch
import proofs.«180041_j26250840113719_1_alg».proof.Proof.Gen.KernelIdeal.Skeleton
import proofs.«180041_j26250840113719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, from the grid coordinates -/

/-- "This is the first tile": the tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 43). -/
theorem hcond1_0 : ∀ t : Fin cfg1.N, cond1_0 (grid1.coords t) ↔ t.val % 43 = 0 :=
  (by decide +kernel : ∀ t : Fin grid1.N, cond1_0 (grid1.coords t) ↔ t.val % 43 = 0)

/-- "This is the last tile": the tile coordinate is 42. -/
abbrev cond1_1 (i : grid1.Coords) : Prop := k1_cond2 i = 1#1
/-- It holds at the points ≡ 42 (mod 43). -/
theorem hcond1_1 : ∀ t : Fin cfg1.N, cond1_1 (grid1.coords t) ↔ t.val % 43 = 42 :=
  (by decide +kernel : ∀ t : Fin grid1.N, cond1_1 (grid1.coords t) ↔ t.val % 43 = 42)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At a first tile the body stores nothing into the output window, and the pipeline does not write it back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
/-- The same at a middle tile. -/
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a last tile the body stores the output block: the window is live. -/
theorem liveAt1_4_C : ∀ t : Fin cfg1.N, ¬cond1_0 (grid1.coords t) → cond1_1 (grid1.coords t) → cfg1.idle 4 (grid1.coords t) = false := by decide +kernel

/-! ## The memrefs the body is called with -/

/-- One staging buffer of the output window, through which its contents are stated. -/
abbrev VO1_4 : View sig .tc .vmem S256x4096 .f32 := (Memref.whole cc1_stg4_0 : Memref sig .tc .vmem S256x4096 .f32).view
abbrev ms1_0 (t : Fin cfg1.N) : Memref sig .tc .vmem S256x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x4096 .f32 := win1_4.stage (cfg1.slots t 4)
abbrev hs1_4 (t : Fin cfg1.N) : (ms1_4 t).IsWhole := hstage1_4 ((cfg1.slots t 4).cast nbuf1_4)
/-- The two accumulators: whole scoped buffers of the kernel's own. -/
abbrev scM1_0 : Memref sig .tc .vmem S256x4096 .f32 := Memref.whole cc1_scratch0
abbrev scM1_1 : Memref sig .tc .vmem S256x16 .f32 := Memref.whole cc1_scratch1
abbrev VS1_0 : View sig .tc .vmem S256x4096 .f32 := scM1_0.view
abbrev VS1_1 : View sig .tc .vmem S256x16 .f32 := scM1_1.view

/-- The class invariant with the two accumulators split out of the scoped rest, each owned at some contents; every
    other scoped buffer (region 0's staging buffers) stays unopened. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [Idealize.SL.BI.bigSepL_cons_cons, Idealize.SL.BI.bigSepL_singleton, scM1_0, scM1_1, owns_whole]; try rfl

end Cert.KernelIdeal.Frame

end
-- ==== Proof.IdealRegion1RunA.lean ====
/-
  Region 1, first tile of a row block: both accumulators are cleared, then the tile's contribution is added to each; the output window is not touched.
-/
import proofs.«180041_j26250840113719_1_alg».proof.Proof.IdealRegion1Conds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case of a first tile: on whole memrefs — the four inputs' at their contents — it runs to the continuation
    holding the inputs' as they were and each buffer it stored into with its stores written, as pieces, last store first.
    The pieces are found by running the body; the two branch conditions are decided by the case's hypotheses. -/
noncomputable def kernelRun1_A (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i)
    (x0 : Vec F S256x256 .bf16) (x1 : Vec F S4096x256 .bf16) (x2 : Vec F S16x256 .bf16) (x3 : Vec F S16x4096 .bf16) :
    Σ' (L4 : List (View.Piece (Elt F) S256x4096 .f32)) (LS0 : List (View.Piece (Elt F) S256x4096 .f32)), { LS1 : List (View.Piece (Elt F) S256x16 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__mlp_down_kernel i arg2 harg2 arg3 harg3 arg4 harg4 arg5 harg5 arg6 harg6 arg7 harg7 arg8 harg8) K } := by
  refine ⟨[], ?_, ?_, fun xi4 E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Frame

end
-- ==== Proof.IdealRegion1RunB.lean ====
/-
  Region 1, middle tile: the tile's contribution is added to each accumulator, over what the tile before left; the output window is not touched.
-/
import proofs.«180041_j26250840113719_1_alg».proof.Proof.IdealRegion1RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case of a middle tile: on whole memrefs — the four inputs' at their contents — it runs to the continuation
    holding the inputs' as they were and each buffer it stored into with its stores written, as pieces, last store first.
    The pieces are found by running the body; the two branch conditions are decided by the case's hypotheses. -/
noncomputable def kernelRun1_B (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i)
    (x0 : Vec F S256x256 .bf16) (x1 : Vec F S4096x256 .bf16) (x2 : Vec F S16x256 .bf16) (x3 : Vec F S16x4096 .bf16) (xs0 : Vec F S256x4096 .f32) (xs1 : Vec F S256x16 .f32) :
    Σ' (L4 : List (View.Piece (Elt F) S256x4096 .f32)) (LS0 : List (View.Piece (Elt F) S256x4096 .f32)), { LS1 : List (View.Piece (Elt F) S256x16 .f32) //
      ∀ (xi4 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__mlp_down_kernel i arg2 harg2 arg3 harg3 arg4 harg4 arg5 harg5 arg6 harg6 arg7 harg7 arg8 harg8) K } := by
  refine ⟨[], ?_, ?_, fun xi4 E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Frame

end
-- ==== Proof.IdealRegion1RunC.lean ====
/-
  Region 1, last tile: the tile's contribution is added to each accumulator, then the low-rank correction (the rank-16 accumulator times the transposed factor) is added to the main accumulator's contents and the sum stored as the output block.
-/
import proofs.«180041_j26250840113719_1_alg».proof.Proof.IdealRegion1RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in the case of a last tile: on whole memrefs — the four inputs' at their contents — it runs to the continuation
    holding the inputs' as they were and each buffer it stored into with its stores written, as pieces, last store first.
    The pieces are found by running the body; the two branch conditions are decided by the case's hypotheses. -/
noncomputable def kernelRun1_C (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i)
    (x0 : Vec F S256x256 .bf16) (x1 : Vec F S4096x256 .bf16) (x2 : Vec F S16x256 .bf16) (x3 : Vec F S16x4096 .bf16) (xs0 : Vec F S256x4096 .f32) (xs1 : Vec F S256x16 .f32) :
    Σ' (L4 : List (View.Piece (Elt F) S256x4096 .f32)) (LS0 : List (View.Piece (Elt F) S256x4096 .f32)), { LS1 : List (View.Piece (Elt F) S256x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__mlp_down_kernel i arg2 harg2 arg3 harg3 arg4 harg4 arg5 harg5 arg6 harg6 arg7 harg7 arg8 harg8) K } := by
  refine ⟨?_, ?_, ?_, fun E K => ?run⟩
  case run =>
    simp only [cc1__mlp_down_kernel_eq_skeleton]; unfold cc1__mlp_down_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Frame

end
-- ==== Proof.IdealRegion1.lean ====
/-
  Region 1 (the down projection accumulated over the 43 hidden tiles): the accumulation point by point, the invariant
  that carries the two accumulators from a point to the next, the pipeline's proof data and the body obligation, at
  any float instance.

  After the body at point n the two accumulators hold: at a first tile, the tile's contribution over the cleared
  accumulators; at every other tile, the tile's contribution over what point n - 1 left. The output block is stored
  at a last tile only, from that tile's accumulators. Before the first point the accumulators hold anything (the
  first point is a first tile and clears them); after any point they hold exactly the contents just described, and
  that is what the invariant says.
-/
import proofs.«180041_j26250840113719_1_alg».proof.Proof.IdealRegion1RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile leaves in the main accumulator: its stores cover it. -/
theorem scover1_A_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  (y : S256x4096.Idx) :
    ∃ pc ∈ (kernelRun1_A c i arg2 harg2 arg3 harg3 arg4 harg4 arg5 harg5 arg6 harg6 arg7 harg7 arg8 harg8 hc0 hc1 x0 x1 x2 x3).2.1, y ∈ pc.1.set :=
  View.cover_of_tiledL (kernelRun1_A c i arg2 harg2 arg3 harg3 arg4 harg4 arg5 harg5 arg6 harg6 arg7 harg7 arg8 harg8 hc0 hc1 x0 x1 x2 x3).2.1 S256x4096.size (by sl_kernel_rfl) y
/-- What A first tile leaves in the main accumulator: its stores read back. -/
def sout1_A_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  : Vec F S256x4096 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.1)
/-- A first tile leaves in the rank-16 accumulator: its stores cover it. -/
theorem scover1_A_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  (y : S256x16.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S256x16.size (by sl_kernel_rfl) y
/-- What A first tile leaves in the rank-16 accumulator: its stores read back. -/
def sout1_A_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  : Vec F S256x16 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2 x3).2.2.1)
/-- What A first tile leaves in the output window's buffer, read back from its stores (none: a placeholder nothing consults, the window being idle and not written back there). -/
def out1_A_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16)  : Vec F S256x4096 .f32 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- A middle tile leaves in the main accumulator: its stores cover it. -/
theorem scover1_B_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x4096.Idx) :
    ∃ pc ∈ (kernelRun1_B c i arg2 harg2 arg3 harg3 arg4 harg4 arg5 harg5 arg6 harg6 arg7 harg7 arg8 harg8 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.1 S256x4096.size (by sl_kernel_rfl) y
/-- What A middle tile leaves in the main accumulator: its stores read back. -/
def sout1_B_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0 xs1).2.1)
/-- A middle tile leaves in the rank-16 accumulator: its stores cover it. -/
theorem scover1_B_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x16.Idx) :
    ∃ pc ∈ (kernelRun1_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 hc0 hc1 x0 x1 x2 x3 xs0 xs1).2.2.1 S256x16.size (by sl_kernel_rfl) y
/-- What A middle tile leaves in the rank-16 accumulator: its stores read back. -/
def sout1_B_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x16 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 x3 xs0 xs1).2.2.1)
/-- What A middle tile leaves in the output window's buffer, read back from its stores (none: a placeholder nothing consults, the window being idle and not written back there). -/
def out1_B_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0 xs1).1)

/-- A last tile leaves in the main accumulator: its stores cover it. -/
theorem scover1_C_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x4096.Idx) :
    ∃ pc ∈ (kernelRun1_C c i arg2 harg2 arg3 harg3 arg4 harg4 arg5 harg5 arg6 harg6 arg7 harg7 arg8 harg8 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.1 S256x4096.size (by sl_kernel_rfl) y
/-- What A last tile leaves in the main accumulator: its stores read back. -/
def sout1_C_0 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0 xs1).2.1)
/-- A last tile leaves in the rank-16 accumulator: its stores cover it. -/
theorem scover1_C_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x16.Idx) :
    ∃ pc ∈ (kernelRun1_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 hc0 hc1 x0 x1 x2 x3 xs0 xs1).2.2.1 S256x16.size (by sl_kernel_rfl) y
/-- What A last tile leaves in the rank-16 accumulator: its stores read back. -/
def sout1_C_1 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x16 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 x3 xs0 xs1).2.2.1)
/-- What A last tile leaves in the output window's buffer, read back from its stores. -/
def out1_C_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) : Vec F S256x4096 .f32 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0 xs1).1)

/-- A last tile's store covers the output block. -/
theorem cover1_C_4 (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) (y : S256x4096.Idx) :
    ∃ pc ∈ (kernelRun1_C c i arg2 harg2 arg3 harg3 arg4 harg4 arg5 harg5 arg6 harg6 arg7 harg7 arg8 harg8 hc0 hc1 x0 x1 x2 x3 xs0 xs1).1, y ∈ pc.1.set :=
  View.cover_of_tiledL (kernelRun1_C c i arg2 harg2 arg3 harg3 arg4 harg4 arg5 harg5 arg6 harg6 arg7 harg7 arg8 harg8 hc0 hc1 x0 x1 x2 x3 xs0 xs1).1 S256x4096.size (by sl_kernel_rfl) y

/-! ## What the buffers hold after each point -/

/-- THE ACCUMULATION: after the body at position `n`, the output window's buffer, the main accumulator and the rank-16
    accumulator — the case of position `n` (first, middle or last tile, by `n` modulo 43) run at the point's memrefs and
    input blocks, a middle or last tile over what position `n - 1` left in the two accumulators. -/
def outsAt1 (c : Dev nD) : (n : ℕ) → n < cfg1.N → Vec F S256x4096 .f32 × Vec F S256x4096 .f32 × Vec F S256x16 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 43 = 0 then
      if h1 : (n + 1) % 43 = 42 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 43 = 42 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2)

/-- At a first tile. -/
theorem outsAt1_A (c : Dev nD) (t : Fin cfg1.N) (h0 : t.val % 43 = 0) (h1 : ¬t.val % 43 = 42) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- At a middle tile: over what the point before left. -/
theorem outsAt1_B (c : Dev nD) (t : Fin cfg1.N) (h0 : ¬t.val % 43 = 0) (h1 : ¬t.val % 43 = 42) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last tile: over what the point before left. -/
theorem outsAt1_C (c : Dev nD) (t : Fin cfg1.N) (h0 : ¬t.val % 43 = 0) (h1 : t.val % 43 = 42) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point the class invariant (every scoped buffer that is no staging buffer of this
    region at anything, the generator register at some state); afterwards the same with the two accumulators at what the
    point before left in them. -/
def PhiS1 (c : Dev nD) : (n : ℕ) → n ≤ cfg1.N → sProp 𝕄
  | 0, _ => Pipeline.ΦA spec1 c
  | n + 1, hn => iprop(((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r)) := rfl

theorem PhiS1_pos (c : Dev nD) (n : ℕ) (h : n ≤ cfg1.N) (hz : n ≠ 0) :
    PhiS1 V c n h = iprop(((owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-! ## The pipeline's proof data -/

/-- The proof data of pipeline 1 on core `c`: the arrays as the region finds them; after the body at point `t` each input's
    buffer at its block and the output's at the accumulation's first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. Its position modulo 43 says which case it is in; the inputs' memrefs hold their blocks; the
    invariant hands the body the two accumulators at what the point before left (at anything before the first point, which
    is a first tile and clears them) and takes them back at this point's contents; at a first or middle tile the output
    window's buffer is handed back as found, at a last tile it holds the stored block; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val % 43 = 0
  · by_cases h1 : t.val % 43 = 42
    · exfalso; omega
    · -- a first tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0 sout1_A_1; (try dsimp only)
      by_cases hz : t.val = 0
      · rw [PhiS1_castSucc V c t, PhiS1_zero V c _ _ hz, PhiA1_eq]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ )
              · unfold owns; iexists _; isplitr
                swap; · iexact HS1
                ipureintro; exact View.read_writes_of_cover _ _ _ _ _ (scover1_A_1 c _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 43 = 42
    · -- a last tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0 sout1_C_1; (try dsimp only)
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ )
              · unfold owns; iexists _; isplitr
                swap; · iexact HS1
                ipureintro; exact View.read_writes_of_cover _ _ _ _ _ (scover1_C_1 c _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _ _ _ _ )
    · -- a middle tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0 sout1_B_1; (try dsimp only)
      · rw [PhiS1_castSucc V c t, PhiS1_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩⟩
        iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ )
              · unfold owns; iexists _; isplitr
                swap; · iexact HS1
                ipureintro; exact View.read_writes_of_cover _ _ _ _ _ (scover1_B_1 c _ _ _ _ _ _ _ _ _ _ _ _ _ _ _ _ _ _ _ _ _ _ _ )
            iexact Hrest
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 688 := N_1; omega)

end Cert.KernelIdeal.Frame

end
-- ==== Proof.IdealRun.lean ====
/-
  The run of the whole program at any float instance: @main is fourteen host operations (a reshape, ten casts, three
  transposes), region 0, region 1, and a closing reshape. Between two of these four items every unscoped buffer
  holds named contents: the launch memory, then what the host operations make of it, then the same with each region's
  arrays at what the pipeline's write-backs leave. Every weakly fair execution terminates in a state whose unscoped
  buffers hold the last of these contents; the arguments among them are as launched, since no item writes one.
-/
import proofs.«180041_j26250840113719_1_alg».proof.Proof.IdealRegion0
import proofs.«180041_j26250840113719_1_alg».proof.Proof.IdealRegion1
import proofs.«180041_j26250840113719_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the fourteen host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
/-- After the closing reshape. -/
abbrev W4 : Dev nD → Valuation τ sig (Elt F) := fun c => StableHlo.after hostOps2 (W3 m c)

/-- A buffer that no host operation writes and that is no array of either region holds its launch contents to the end. -/
theorem W4_kept (c : Dev nD) (r : Ref sig .tc) (h2 : r ∉ (hostOps2_W : List (Ref sig .tc))) (h1 : ∀ w, Pipeline.arrRef spec1 w ≠ r)
    (h0 : ∀ w, Pipeline.arrRef spec0 w ≠ r) (hh : r ∉ (hostOps0_W : List (Ref sig .tc))) :
    W4 m c (Proc.devRef .tc r) = m ((c : Thread nD τ).loc r) :=
  calc W4 m c (Proc.devRef .tc r)
    _ = W3 m c (Proc.devRef .tc r) := StableHlo.after_of_writes_sub hostOps2 _ hostOps2_writes h2
    _ = W2 m c (Proc.devRef .tc r) := W3_of_ne m c r h1
    _ = W1 m c (Proc.devRef .tc r) := W2_of_ne m c r h0
    _ = W0 m c (Proc.devRef .tc r) := StableHlo.after_of_writes_sub hostOps0 _ hostOps0_writes hh
    _ = m ((c : Thread nD τ).loc r) := rfl

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at the contents before it, left with them at
    the contents after it. Its arrays are split out of the unscoped buffers and put back at what the write-backs leave;
    the generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at
    the contents after it. Its arrays are split out of the unscoped buffers and put back at what the write-backs leave;
    the generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c) ⊢ (Pipeline.ΦA spec1 c : sProp 𝕄) := by
      unfold Pipeline.ΦA
      iintro ⟨Hp, -, Hr⟩
      isplitl [Hr]; · iexact Hr
      iexact Hp
    exact h.trans (hin1 (V2 m) c)
  hout c := by
    rw [Pipeline.ownSems0_none]
    have h : (Pipeline.ΦA spec1 c : sProp 𝕄) ⊢ iprop((∃ r, prngReg c r) ∗ BI.emp
        ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) :=
  main_segs adm (pdats m) () 𝒱₀ L lv _ _ (reg0 m) (reg1 m) rfl rfl c

set_option backward.isDefEq.respectTransparency.types false in
/-- THE RUN: at the compiled mesh, from any memory with zero counters, every weakly fair execution of @main on the
    TensorCores terminates, nothing faulting, and in every final state each unscoped buffer holds the last boundary's
    contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The frame -/

/-- THE FRAME: every argument array ends as launched. No host operation writes an argument and none is an array of
    either region, so the last contents at an argument walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide))⟩) (run_main m ρ)

/-- The result array and the arguments at the end: the result holds the last contents `W4` at it. -/
theorem run_result : θ_run defs (onTc (τ := τ) (main (F := F))) ⟨m, fun _ => 0, ρ⟩ (fun r => ∀ c : Dev nD,
      r.2.mem ((c.tc : Thread nD τ).loc main_v16) = W4 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v16 (by decide)),
    (h c _ (mem_uc main_arg0 (by decide))).trans (W4_kept m c main_arg0 (by decide) (by decide) (by decide) (by decide)),
    (h c _ (mem_uc main_arg1 (by decide))).trans (W4_kept m c main_arg1 (by decide) (by decide) (by decide) (by decide)),
    (h c _ (mem_uc main_arg2 (by decide))).trans (W4_kept m c main_arg2 (by decide) (by decide) (by decide) (by decide)),
    (h c _ (mem_uc main_arg3 (by decide))).trans (W4_kept m c main_arg3 (by decide) (by decide) (by decide) (by decide)),
    (h c _ (mem_uc main_arg4 (by decide))).trans (W4_kept m c main_arg4 (by decide) (by decide) (by decide) (by decide)),
    (h c _ (mem_uc main_arg5 (by decide))).trans (W4_kept m c main_arg5 (by decide) (by decide) (by decide) (by decide)),
    (h c _ (mem_uc main_arg6 (by decide))).trans (W4_kept m c main_arg6 (by decide) (by decide) (by decide) (by decide)),
    (h c _ (mem_uc main_arg7 (by decide))).trans (W4_kept m c main_arg7 (by decide) (by decide) (by decide) (by decide)),
    (h c _ (mem_uc main_arg8 (by decide))).trans (W4_kept m c main_arg8 (by decide) (by decide) (by decide) (by decide)),
    (h c _ (mem_uc main_arg9 (by decide))).trans (W4_kept m c main_arg9 (by decide) (by decide) (by decide) (by decide))⟩) (run_main m ρ)

end Cert.KernelIdeal.Frame

end
-- ==== Proof.Spec.lean ====
/-
  The mathematics of the two programs, over the extended reals, with no program in sight.

  Both compute a gated two-layer map with low-rank corrections. For a row x of 4096 activations and a hidden
  unit h,
      gate(h) = ∑_d x_d·Wg[h,d] + ∑_k (∑_d x_d·Ag[k,d])·Bg[h,k]          (k over the rank, 16)
      up(h)   = the same with Wu, Au, Bu
      hid(h)  = gate(h)·σ(gate(h))·up(h),        σ(g) = 1 / (1 + e^(−g))
  and for an output unit d
      out(d)  = ∑_h hid(h)·Wd[d,h] + ∑_k (∑_h hid(h)·Ad[k,h])·Bd[d,k]     (h over the 11008 hidden units).
  The one law the comparison needs is that a sum over the 11008 hidden units may be taken tile by tile, 43 tiles of
  256: addition of extended reals is commutative and associative (no finiteness is needed for that).
-/
import Idealize.ShloMosaic.PureOps.Ideal
import Idealize.ShloMosaic.Lib.ValueIdx

noncomputable section

namespace Cert.Spec

open Idealize.ShloMosaic ValueIdx

/-- A rank-2 array of extended reals, and a rank-3 one. -/
abbrev A2 (n0 n1 : ℕ) : Type := (⟨2, ![n0, n1]⟩ : Shape).Idx → EReal
abbrev A3 (n0 n1 n2 : ℕ) : Type := (⟨3, ![n0, n1, n2]⟩ : Shape).Idx → EReal

/-- One projection with its low-rank correction: `x·w + ∑_k (x·a_k)·b_k`. -/
def proj {D R : ℕ} (x w : Fin D → EReal) (a : Fin R → Fin D → EReal) (b : Fin R → EReal) : EReal :=
  (∑ d, x d * w d) + ∑ k, (∑ d, x d * a k d) * b k

/-- The gate through SiLU, times the up projection. -/
def swiglu (g u : EReal) : EReal := g * Ideal.logistic g * u

/-- The hidden activation of unit `h` for the row `xrow`. -/
def hiddenAt (xrow : Fin 4096 → EReal) (gw uw : A2 11008 4096) (ga ua : A2 16 4096) (gb ub : A2 11008 16) (h : Fin 11008) : EReal :=
  swiglu (proj xrow (fun e => gw (ix2 h e)) (fun k e => ga (ix2 k e)) (fun k => gb (ix2 h k)))
    (proj xrow (fun e => uw (ix2 h e)) (fun k e => ua (ix2 k e)) (fun k => ub (ix2 h k)))

/-- The output unit `d` from the hidden activations `hid`. -/
def outAt (hid : Fin 11008 → EReal) (dw : A2 4096 11008) (da : A2 16 11008) (db : A2 4096 16) (d : Fin 4096) : EReal :=
  proj hid (fun h => dw (ix2 d h)) (fun k h => da (ix2 k h)) (fun k => db (ix2 d k))

/-- THE RESULT at batch `b`, position `s`, output unit `d`, as a function of the ten argument arrays. -/
def Gat (x : A3 2 2048 4096) (gw uw : A2 11008 4096) (dw : A2 4096 11008) (ga : A2 16 4096) (gb : A2 11008 16)
    (ua : A2 16 4096) (ub : A2 11008 16) (da : A2 16 11008) (db : A2 4096 16) (b : Fin 2) (s : Fin 2048) (d : Fin 4096) : EReal :=
  outAt (hiddenAt (fun e => x (ix3 b s e)) gw uw ga ua gb ub) dw da db d

/-- Hidden unit `256·j + h'` is offset `h'` of tile `j`. -/
def tileEquiv : Fin 43 × Fin 256 ≃ Fin 11008 where
  toFun p := ⟨256 * p.1.val + p.2.val, by have := p.1.isLt; have := p.2.isLt; omega⟩
  invFun h := (⟨h.val / 256, by have := h.isLt; omega⟩, ⟨h.val % 256, Nat.mod_lt _ (by norm_num)⟩)
  left_inv p := by
    have h2 := p.2.isLt
    apply Prod.ext <;> apply Fin.ext <;> (try dsimp only) <;> omega
  right_inv h := by apply Fin.ext; (try dsimp only); omega

theorem tileEquiv_val (j : Fin 43) (h' : Fin 256) : (tileEquiv (j, h')).val = 256 * j.val + h'.val := rfl

/-- A sum over the 11008 hidden units, taken tile by tile: 43 tiles of 256. -/
theorem sum_tiles (f : Fin 11008 → EReal) :
    ∑ j : Fin 43, ∑ h' : Fin 256, f (tileEquiv (j, h')) = ∑ h : Fin 11008, f h := by
  rw [← Fintype.sum_prod_type']
  exact Fintype.sum_equiv tileEquiv (fun p => f (tileEquiv (p.1, p.2))) f (fun _ => rfl)

/-- The same with the tiles counted by a `Finset.range`, as a fold over grid points produces them; `g j` is the addend of
    tile `j`, which agrees with the tile's sum for `j < 43`. -/
theorem sum_range_tiles (f : Fin 11008 → EReal) (g : ℕ → EReal)
    (hg : ∀ j : Fin 43, g j.val = ∑ h' : Fin 256, f (tileEquiv (j, h'))) :
    ∑ j ∈ Finset.range 43, g j = ∑ h : Fin 11008, f h := by
  rw [← sum_tiles f, Finset.sum_range]
  exact Finset.sum_congr rfl fun j _ => hg j

end Cert.Spec

end
-- ==== Proof.IdealValue0.lean ====
/-
  Region 0's output array (the hidden activations) after the run, at the extended reals: each entry is the gate
  projection through SiLU times the up projection, of the activations' row and the hidden unit's weights.
-/
import proofs.«180041_j26250840113719_1_alg».proof.Proof.IdealRegion0
import proofs.«180041_j26250840113719_1_alg».proof.Proof.Spec
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## The three contractions of the body, read at an index

Each of the body's products contracts one axis: the two full products and the two rank-16 products contract the
4096 input features (axis 1 of both operands), the two corrections contract the rank (axis 1 of the left operand, axis 0
of the transposed factor on the right). On each operand axis the index is either an output coordinate or the
contraction position. -/

private theorem lhsW_0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
private theorem lhsW_1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
private theorem rhsW_0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
private theorem rhsW_1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q
private theorem lhsA_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
private theorem lhsA_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
private theorem rhsA_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
private theorem rhsA_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q
private theorem lhsB_0 (i : S256x256.Idx) (q : dot_S256x16_S16x256_S256x256_1_0_0_1_n_n.contr.Idx) :
    (dot_S256x16_S16x256_S256x256_1_0_0_1_n_n.lhsIdx i q 0).val = (i 0).val := by
  unfold DotDims.lhsIdx
  rw [dif_neg (show ¬(0 : Fin S256x16.rank) ∈ dot_S256x16_S16x256_S256x256_1_0_0_1_n_n.lhsBatch by decide), dif_pos (show (0 : Fin S256x16.rank) ∈ dot_S256x16_S16x256_S256x256_1_0_0_1_n_n.lhsNonContracting by decide)]
  rfl
private theorem lhsB_1 (i : S256x256.Idx) (q : dot_S256x16_S16x256_S256x256_1_0_0_1_n_n.contr.Idx) :
    (dot_S256x16_S16x256_S256x256_1_0_0_1_n_n.lhsIdx i q 1).val = (q ⟨0, by decide⟩).val :=
  dot_S256x16_S16x256_S256x256_1_0_0_1_n_n.lhsIdx_val_of_single rfl i q
private theorem rhsB_0 (i : S256x256.Idx) (q : dot_S256x16_S16x256_S256x256_1_0_0_1_n_n.contr.Idx) :
    (dot_S256x16_S16x256_S256x256_1_0_0_1_n_n.rhsIdx i q 0).val = (q ⟨0, by decide⟩).val :=
  dot_S256x16_S16x256_S256x256_1_0_0_1_n_n.rhsIdx_val_of_single rfl i q
private theorem rhsB_1 (i : S256x256.Idx) (q : dot_S256x16_S16x256_S256x256_1_0_0_1_n_n.contr.Idx) :
    (dot_S256x16_S16x256_S256x256_1_0_0_1_n_n.rhsIdx i q 1).val = (i 1).val := by
  unfold DotDims.rhsIdx
  rw [dif_neg (show ¬(1 : Fin S16x256.rank) ∈ dot_S256x16_S16x256_S256x256_1_0_0_1_n_n.rhsBatch by decide), dif_pos (show (1 : Fin S16x256.rank) ∈ dot_S256x16_S16x256_S256x256_1_0_0_1_n_n.rhsNonContracting by decide)]
  rfl

/-- A full product into the zero accumulator, at row `p` and column `q`: the sum over the 4096 features of the
    left block's row `p` against the right block's row `q`. -/
private theorem matmulW_apply (x w : FVec Ideal S256x4096 .bf16) (p q : Fin 256) :
    matmul dot_S256x4096_S256x4096_S256x256_1_1_0_0_n_n none x w (constant S256x256 .f32 0x00000000#32) (ix2 p q)
      = ∑ e : Fin 4096, x (ix2 p e) * w (ix2 q e) := by
  refine (Ideal.matmul_constant_zero_apply dot_S256x4096_S256x4096_S256x256_1_1_0_0_n_n none x w (ix2 p q)).trans ?_
  rw [← Equiv.sum_comp (contrEquiv1 dot_S256x4096_S256x4096_S256x256_1_1_0_0_n_n 4096 rfl rfl).symm]
  refine Finset.sum_congr rfl fun e _ => ?_
  have he := contrEquiv1_symm_val dot_S256x4096_S256x4096_S256x256_1_1_0_0_n_n 4096 rfl rfl e
  have el : dot_S256x4096_S256x4096_S256x256_1_1_0_0_n_n.lhsIdx (ix2 p q) ((contrEquiv1 dot_S256x4096_S256x4096_S256x256_1_1_0_0_n_n 4096 rfl rfl).symm e) = ix2 p e := funext fun a => Fin.ext (by
    match a with
    | ⟨0, _⟩ => exact lhsW_0 _ _
    | ⟨1, _⟩ => exact (lhsW_1 _ _).trans he)
  have er : dot_S256x4096_S256x4096_S256x256_1_1_0_0_n_n.rhsIdx (ix2 p q) ((contrEquiv1 dot_S256x4096_S256x4096_S256x256_1_1_0_0_n_n 4096 rfl rfl).symm e) = ix2 q e := funext fun a => Fin.ext (by
    match a with
    | ⟨0, _⟩ => exact rhsW_0 _ _
    | ⟨1, _⟩ => exact (rhsW_1 _ _).trans he)
  rw [el, er]

/-- A rank-16 product into the zero accumulator, at row `p` and rank index `k`: the sum over the 4096 features of
    the left block's row `p` against row `k` of the factor. -/
private theorem matmulA_apply (x : FVec Ideal S256x4096 .bf16) (a : FVec Ideal S16x4096 .bf16) (p : Fin 256) (k : Fin 16) :
    matmul dot_S256x4096_S16x4096_S256x16_1_1_0_0_n_n none x a (constant S256x16 .f32 0x00000000#32) (ix2 p k)
      = ∑ e : Fin 4096, x (ix2 p e) * a (ix2 k e) := by
  refine (Ideal.matmul_constant_zero_apply dot_S256x4096_S16x4096_S256x16_1_1_0_0_n_n none x a (ix2 p k)).trans ?_
  rw [← Equiv.sum_comp (contrEquiv1 dot_S256x4096_S16x4096_S256x16_1_1_0_0_n_n 4096 rfl rfl).symm]
  refine Finset.sum_congr rfl fun e _ => ?_
  have he := contrEquiv1_symm_val dot_S256x4096_S16x4096_S256x16_1_1_0_0_n_n 4096 rfl rfl e
  have el : dot_S256x4096_S16x4096_S256x16_1_1_0_0_n_n.lhsIdx (ix2 p k) ((contrEquiv1 dot_S256x4096_S16x4096_S256x16_1_1_0_0_n_n 4096 rfl rfl).symm e) = ix2 p e := funext fun a => Fin.ext (by
    match a with
    | ⟨0, _⟩ => exact lhsA_0 _ _
    | ⟨1, _⟩ => exact (lhsA_1 _ _).trans he)
  have er : dot_S256x4096_S16x4096_S256x16_1_1_0_0_n_n.rhsIdx (ix2 p k) ((contrEquiv1 dot_S256x4096_S16x4096_S256x16_1_1_0_0_n_n 4096 rfl rfl).symm e) = ix2 k e := funext fun a => Fin.ext (by
    match a with
    | ⟨0, _⟩ => exact rhsA_0 _ _
    | ⟨1, _⟩ => exact (rhsA_1 _ _).trans he)
  rw [el, er]

/-- A correction into the zero accumulator, at row `p` and column `q`: the sum over the rank of the rank-16 product's
    row `p` against column `q` of the transposed factor. -/
private theorem matmulB_apply (y : FVec Ideal S256x16 .bf16) (b : FVec Ideal S16x256 .bf16) (p q : Fin 256) :
    matmul dot_S256x16_S16x256_S256x256_1_0_0_1_n_n none y b (constant S256x256 .f32 0x00000000#32) (ix2 p q)
      = ∑ k : Fin 16, y (ix2 p k) * b (ix2 k q) := by
  refine (Ideal.matmul_constant_zero_apply dot_S256x16_S16x256_S256x256_1_0_0_1_n_n none y b (ix2 p q)).trans ?_
  rw [← Equiv.sum_comp (contrEquiv1 dot_S256x16_S16x256_S256x256_1_0_0_1_n_n 16 rfl rfl).symm]
  refine Finset.sum_congr rfl fun k _ => ?_
  have hk := contrEquiv1_symm_val dot_S256x16_S16x256_S256x256_1_0_0_1_n_n 16 rfl rfl k
  have el : dot_S256x16_S16x256_S256x256_1_0_0_1_n_n.lhsIdx (ix2 p q) ((contrEquiv1 dot_S256x16_S16x256_S256x256_1_0_0_1_n_n 16 rfl rfl).symm k) = ix2 p k := funext fun a => Fin.ext (by
    match a with
    | ⟨0, _⟩ => exact lhsB_0 _ _
    | ⟨1, _⟩ => exact (lhsB_1 _ _).trans hk)
  have er : dot_S256x16_S16x256_S256x256_1_0_0_1_n_n.rhsIdx (ix2 p q) ((contrEquiv1 dot_S256x16_S16x256_S256x256_1_0_0_1_n_n 16 rfl rfl).symm k) = ix2 k q := funext fun a => Fin.ext (by
    match a with
    | ⟨0, _⟩ => exact (rhsB_0 _ _).trans hk
    | ⟨1, _⟩ => exact rhsB_1 _ _)
  rw [el, er]

/-! ## The body's arithmetic at an index -/

/-- One projection of the block with its low-rank correction, as the body computes it: the full product plus the
    rank-16 product carried through the transposed factor. -/
private def projBlock {F : FTy → Type} [FloatOps F] (x w : Vec F S256x4096 .bf16) (a : Vec F S16x4096 .bf16) (b : Vec F S16x256 .bf16) : FVec F S256x256 .f32 :=
  addf (matmul dot_S256x4096_S256x4096_S256x256_1_1_0_0_n_n none x w (constant S256x256 .f32 0x00000000#32))
    (matmul dot_S256x16_S16x256_S256x256_1_0_0_1_n_n none
      (truncf .bf16 (matmul dot_S256x4096_S16x4096_S256x16_1_1_0_0_n_n none x a (constant S256x16 .f32 0x00000000#32)) bitsLt_bf16_f32)
      b (constant S256x256 .f32 0x00000000#32))

/-- The body's payload is the gate projection through SiLU times the up projection, of the seven loaded blocks (the casts
    to a shape's own shape are the identity). -/
private theorem k0_pay1_eq {F : FTy → Type} [FloatOps F] (x0 x1 x2 : Vec F S256x4096 .bf16) (x3 x4 : Vec F S16x4096 .bf16) (x5 x6 : Vec F S16x256 .bf16) :
    k0_pay1 x0 x1 x2 x3 x4 x5 x6
      = truncf .bf16 (mulf (mulf (projBlock x0 x1 x3 x5) (logistic (projBlock x0 x1 x3 x5))) (projBlock x0 x2 x4 x6)) bitsLt_bf16_f32 := by
  unfold k0_pay1 projBlock
  simp only [shapeCast_self]

/-- At the extended reals a projection block at row `p`, column `q` is the projection of row `p` of the activations'
    block onto row `q` of the weights' block, corrected through the factors' rows and column `q` of the transposed factor. -/
private theorem projBlock_apply (x w : Vec Ideal S256x4096 .bf16) (a : Vec Ideal S16x4096 .bf16) (b : Vec Ideal S16x256 .bf16) (p q : Fin 256) :
    projBlock (F := Ideal) x w a b (ix2 p q)
      = Cert.Spec.proj (fun e : Fin 4096 => (x (ix2 p e) : EReal)) (fun e => (w (ix2 q e) : EReal))
          (fun (k : Fin 16) e => (a (ix2 k e) : EReal)) (fun k => (b (ix2 k q) : EReal)) := by
  unfold projBlock Cert.Spec.proj
  rw [addf_apply, matmulW_apply, matmulB_apply]
  refine congrArg _ (Finset.sum_congr rfl fun k _ => ?_)
  rw [truncf_apply, matmulA_apply]

/-- THE BODY'S PAYLOAD at row `p`, column `q` of the output block. -/
private theorem k0_pay1_apply (x0 x1 x2 : Vec Ideal S256x4096 .bf16) (x3 x4 : Vec Ideal S16x4096 .bf16) (x5 x6 : Vec Ideal S16x256 .bf16) (p q : Fin 256) :
    (k0_pay1 (F := Ideal) x0 x1 x2 x3 x4 x5 x6 (ix2 p q) : EReal)
      = Cert.Spec.swiglu
          (Cert.Spec.proj (fun e : Fin 4096 => (x0 (ix2 p e) : EReal)) (fun e => (x1 (ix2 q e) : EReal))
            (fun (k : Fin 16) e => (x3 (ix2 k e) : EReal)) (fun k => (x5 (ix2 k q) : EReal)))
          (Cert.Spec.proj (fun e : Fin 4096 => (x0 (ix2 p e) : EReal)) (fun e => (x2 (ix2 q e) : EReal))
            (fun (k : Fin 16) e => (x4 (ix2 k e) : EReal)) (fun k => (x6 (ix2 k q) : EReal))) := by
  rw [k0_pay1_eq, truncf_apply, mulf_apply, mulf_apply]
  show projBlock x0 x1 x3 x5 (ix2 p q) * FloatOps.logistic (projBlock x0 x1 x3 x5 (ix2 p q)) * projBlock x0 x2 x4 x6 (ix2 p q) = _
  rw [projBlock_apply, projBlock_apply]
  rfl

variable (V : (c : Dev nD) → (b : Ref sig .tc) → Buf (Elt Ideal) ((c : Thread nD τ).loc b))

/-! ## From blocks to the array

The grid is 43 × 16 and a point's second coordinate moves fastest: point `t` works on hidden tile `t / 16` and on row
block `t % 16`. The activations' window follows the row block, the two weight windows and the two transposed factors'
windows follow the hidden tile (the former along their rows, the latter along their columns), the two rank-16 factors are
taken whole, and the output's block is at (row block, hidden tile). A block's element sits in its array, on each axis, at
the block index times the block's extent plus its own coordinate. -/

private theorem zeroOffsets : (![0, 0] : Fin 2 → Nat) = fun _ => 0 :=
  funext fun a => by match a with | ⟨0, _⟩ => rfl | ⟨1, _⟩ => rfl

/-- The eight windows' block indices at every point of the grid, decided once. -/
private theorem blockIndex0 : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val / 16
    ∧ win0_6.index t (0 : Fin 2) = 0 ∧ win0_6.index t (1 : Fin 2) = t.val / 16
    ∧ win0_7.index t (0 : Fin 2) = t.val % 16 ∧ win0_7.index t (1 : Fin 2) = t.val / 16 :=
  (by decide +kernel : ∀ t : Fin grid0.N, _)

/-- The hidden activation of row `r` and hidden unit `h`, of the arrays the region finds. -/
private def hiddenOf (c : Dev nD) (r : Fin 4096) (h : Fin 11008) : EReal :=
  Cert.Spec.swiglu
    (Cert.Spec.proj (fun e : Fin 4096 => (V c main_v1 (ix2 r e) : EReal)) (fun e => (V c main_v2 (ix2 h e) : EReal))
      (fun (k : Fin 16) e => (V c main_v5 (ix2 k e) : EReal)) (fun k => (V c main_v9 (ix2 k h) : EReal)))
    (Cert.Spec.proj (fun e : Fin 4096 => (V c main_v1 (ix2 r e) : EReal)) (fun e => (V c main_v3 (ix2 h e) : EReal))
      (fun (k : Fin 16) e => (V c main_v6 (ix2 k e) : EReal)) (fun k => (V c main_v11 (ix2 k h) : EReal)))

/-- The whole hidden array as one function of its index. -/
private def hiddenArr (c : Dev nD) : S4096x11008.Idx → EReal :=
  fun i => hiddenOf V c ⟨(i 0).val, (i 0).isLt⟩ ⟨(i 1).val, (i 1).isLt⟩

/-- The activations' block at point `t` is rows `256·(t % 16) …` of the activations. -/
private theorem rowsBlock_apply (c : Dev nD) (t : Fin cfg0.N) (p : Fin 256) (e : Fin 4096) (r : Fin 4096)
    (hr : r.val = t.val % 16 * 256 + p.val) :
    (iblk0 V c 0 t : Vec Ideal S256x4096 .bf16) (ix2 p e) = (V c main_v1 (ix2 r e) : EReal) := by
  obtain ⟨e0, e1, -⟩ := blockIndex0 t
  unfold iblk0
  rw [View.read_apply]
  show V c main_v1 _ = V c main_v1 _
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 4096 + 1 * e.val = e.val; rw [e1]; omega

/-- The gate weights' block at point `t` is rows `256·(t / 16) …` of the gate weights. -/
private theorem gateRowsBlock_apply (c : Dev nD) (t : Fin cfg0.N) (q : Fin 256) (e : Fin 4096) (h : Fin 11008)
    (hh : h.val = t.val / 16 * 256 + q.val) :
    (iblk0 V c 1 t : Vec Ideal S256x4096 .bf16) (ix2 q e) = (V c main_v2 (ix2 h e) : EReal) := by
  obtain ⟨-, -, e0, e1, -⟩ := blockIndex0 t
  unfold iblk0
  rw [View.read_apply]
  show V c main_v2 _ = V c main_v2 _
  refine congrArg _ (funext fun a => Fin.ext ?_)
  match a with
  | ⟨0, _⟩ => show win0_1.index t (0 : Fin 2) * 256 + 1 * q.val = h.val; rw [e0, hh]; omega
  | ⟨1, _⟩ => show win0_1.index t (1 : Fin 2) * 4096 + 1 * e.val = e.val; rw [e1]; omega

/-- The up weights' block at point `t` is rows `256·(t / 16) …` of the up weights. -/
private theorem upRowsBlock_apply (c : Dev nD) (t : Fin cfg0.N) (q : Fin 256) (e : Fin 4096) (h : Fin 11008)
    (hh : h.val = t.val / 16 * 256 + q.val) :
    (iblk0 V c 2 t : Vec Ideal S256x4096 .bf16) (ix2 q e) = (V c main_v3 (ix2 h e) : EReal) := by
  obtain ⟨-, -, -, -, e0, e1, -⟩ := blockIndex0 t
  unfold iblk0
  rw [View.read_apply]
  show V c main_v3 _ = V c main_v3 _
  refine congrArg _ (funext fun a => Fin.ext ?_)
  match a with
  | ⟨0, _⟩ => show win0_2.index t (0 : Fin 2) * 256 + 1 * q.val = h.val; rw [e0, hh]; omega
  | ⟨1, _⟩ => show win0_2.index t (1 : Fin 2) * 4096 + 1 * e.val = e.val; rw [e1]; omega

/-- The gate's rank-16 factor is staged whole at every point. -/
private theorem gateFactor_apply (c : Dev nD) (t : Fin cfg0.N) (k : Fin 16) (e : Fin 4096) :
    (iblk0 V c 3 t : Vec Ideal S16x4096 .bf16) (ix2 k e) = (V c main_v5 (ix2 k e) : EReal) := by
  obtain ⟨-, -, -, -, -, -, e0, e1, -⟩ := blockIndex0 t
  unfold iblk0
  rw [View.read_apply]
  show V c main_v5 _ = V c main_v5 _
  refine congrArg _ (funext fun a => Fin.ext ?_)
  match a with
  | ⟨0, _⟩ => show win0_3.index t (0 : Fin 2) * 16 + 1 * k.val = k.val; rw [e0]; omega
  | ⟨1, _⟩ => show win0_3.index t (1 : Fin 2) * 4096 + 1 * e.val = e.val; rw [e1]; omega

/-- The up's rank-16 factor is staged whole at every point. -/
private theorem upFactor_apply (c : Dev nD) (t : Fin cfg0.N) (k : Fin 16) (e : Fin 4096) :
    (iblk0 V c 4 t : Vec Ideal S16x4096 .bf16) (ix2 k e) = (V c main_v6 (ix2 k e) : EReal) := by
  obtain ⟨-, -, -, -, -, -, -, -, e0, e1, -⟩ := blockIndex0 t
  unfold iblk0
  rw [View.read_apply]
  show V c main_v6 _ = V c main_v6 _
  refine congrArg _ (funext fun a => Fin.ext ?_)
  match a with
  | ⟨0, _⟩ => show win0_4.index t (0 : Fin 2) * 16 + 1 * k.val = k.val; rw [e0]; omega
  | ⟨1, _⟩ => show win0_4.index t (1 : Fin 2) * 4096 + 1 * e.val = e.val; rw [e1]; omega

/-- The gate's transposed factor's block at point `t` is columns `256·(t / 16) …` of it. -/
private theorem gateColsBlock_apply (c : Dev nD) (t : Fin cfg0.N) (k : Fin 16) (q : Fin 256) (h : Fin 11008)
    (hh : h.val = t.val / 16 * 256 + q.val) :
    (iblk0 V c 5 t : Vec Ideal S16x256 .bf16) (ix2 k q) = (V c main_v9 (ix2 k h) : EReal) := by
  obtain ⟨-, -, -, -, -, -, -, -, -, -, e0, e1, -⟩ := blockIndex0 t
  unfold iblk0
  rw [View.read_apply]
  show V c main_v9 _ = V c main_v9 _
  refine congrArg _ (funext fun a => Fin.ext ?_)
  match a with
  | ⟨0, _⟩ => show win0_5.index t (0 : Fin 2) * 16 + 1 * k.val = k.val; rw [e0]; omega
  | ⟨1, _⟩ => show win0_5.index t (1 : Fin 2) * 256 + 1 * q.val = h.val; rw [e1, hh]; omega

/-- The up's transposed factor's block at point `t` is columns `256·(t / 16) …` of it. -/
private theorem upColsBlock_apply (c : Dev nD) (t : Fin cfg0.N) (k : Fin 16) (q : Fin 256) (h : Fin 11008)
    (hh : h.val = t.val / 16 * 256 + q.val) :
    (iblk0 V c 6 t : Vec Ideal S16x256 .bf16) (ix2 k q) = (V c main_v11 (ix2 k h) : EReal) := by
  obtain ⟨-, -, -, -, -, -, -, -, -, -, -, -, e0, e1, -⟩ := blockIndex0 t
  unfold iblk0
  rw [View.read_apply]
  show V c main_v11 _ = V c main_v11 _
  refine congrArg _ (funext fun a => Fin.ext ?_)
  match a with
  | ⟨0, _⟩ => show win0_6.index t (0 : Fin 2) * 16 + 1 * k.val = k.val; rw [e0]; omega
  | ⟨1, _⟩ => show win0_6.index t (1 : Fin 2) * 256 + 1 * q.val = h.val; rw [e1, hh]; omega

/-- The body's result at point `t`, at an element `y` of its block, is the hidden array at the index `i` where that element
    sits: row `256·(t % 16) + y₀`, hidden unit `256·(t / 16) + y₁`. -/
private theorem blockResult_apply (c : Dev nD) (t : Fin cfg0.N) (y : S256x256.Idx) (i : S4096x11008.Idx)
    (hi0 : (i 0).val = t.val % 16 * 256 + (y 0).val) (hi1 : (i 1).val = t.val / 16 * 256 + (y 1).val) :
    (k0_pay1 (F := Ideal) (iblk0 V c 0 t) (iblk0 V c 1 t) (iblk0 V c 2 t) (iblk0 V c 3 t) (iblk0 V c 4 t) (iblk0 V c 5 t) (iblk0 V c 6 t) y : EReal)
      = hiddenArr V c i := by
  obtain ⟨p, q, rfl⟩ : ∃ (p q : Fin 256), y = ix2 p q := ⟨y 0, y 1, eq_ix2 y⟩
  refine (k0_pay1_apply (iblk0 V c 0 t) (iblk0 V c 1 t) (iblk0 V c 2 t) (iblk0 V c 3 t) (iblk0 V c 4 t) (iblk0 V c 5 t) (iblk0 V c 6 t) p q).trans ?_
  unfold hiddenArr hiddenOf
  have hx : ∀ e : Fin 4096, (iblk0 V c 0 t : Vec Ideal S256x4096 .bf16) (ix2 p e) = (V c main_v1 (ix2 (⟨(i 0).val, (i 0).isLt⟩ : Fin 4096) e) : EReal) :=
    fun e => rowsBlock_apply V c t p e _ hi0
  have hg : ∀ e : Fin 4096, (iblk0 V c 1 t : Vec Ideal S256x4096 .bf16) (ix2 q e) = (V c main_v2 (ix2 (⟨(i 1).val, (i 1).isLt⟩ : Fin 11008) e) : EReal) :=
    fun e => gateRowsBlock_apply V c t q e _ hi1
  have hu : ∀ e : Fin 4096, (iblk0 V c 2 t : Vec Ideal S256x4096 .bf16) (ix2 q e) = (V c main_v3 (ix2 (⟨(i 1).val, (i 1).isLt⟩ : Fin 11008) e) : EReal) :=
    fun e => upRowsBlock_apply V c t q e _ hi1
  have hga : ∀ (k : Fin 16) (e : Fin 4096), (iblk0 V c 3 t : Vec Ideal S16x4096 .bf16) (ix2 k e) = (V c main_v5 (ix2 k e) : EReal) :=
    fun k e => gateFactor_apply V c t k e
  have hua : ∀ (k : Fin 16) (e : Fin 4096), (iblk0 V c 4 t : Vec Ideal S16x4096 .bf16) (ix2 k e) = (V c main_v6 (ix2 k e) : EReal) :=
    fun k e => upFactor_apply V c t k e
  have hgb : ∀ k : Fin 16, (iblk0 V c 5 t : Vec Ideal S16x256 .bf16) (ix2 k q) = (V c main_v9 (ix2 k (⟨(i 1).val, (i 1).isLt⟩ : Fin 11008)) : EReal) :=
    fun k => gateColsBlock_apply V c t k q _ hi1
  have hub : ∀ k : Fin 16, (iblk0 V c 6 t : Vec Ideal S16x256 .bf16) (ix2 k q) = (V c main_v11 (ix2 k (⟨(i 1).val, (i 1).isLt⟩ : Fin 11008)) : EReal) :=
    fun k => upColsBlock_apply V c t k q _ hi1
  simp only [hx, hg, hu, hga, hua, hgb, hub]

/-- WHAT POINT `t` WRITES BACK is block `t` of the hidden array: the one store of the body leaves its payload, of the
    seven staged blocks, and the block's element `j` sits at row `256·(t % 16) + j₀`, hidden unit `256·(t / 16) + j₁`. -/
private theorem flushed0_eq (c : Dev nD) (t : Fin cfg0.N) :
    (dat0 (F := Ideal) V c).flushed 7 t = ((cfg0.win 7).blk t).view.read (Elt Ideal) (hiddenArr V c) := by
  obtain ⟨-, -, -, -, -, -, -, -, -, -, -, -, -, -, e0, e1⟩ := blockIndex0 t
  show (cfg0.win 7).cut (grid0.coords t) ((dat0 (F := Ideal) V c).after 7 t) = _
  rw [after0_7]
  unfold out0_7
  rw [View.canon_unit_zero zeroOffsets]
  simp only [View.ld_unit_zero (S := S256x4096) zeroOffsets, View.ld_unit_zero (S := S16x4096) zeroOffsets,
    View.ld_unit_zero (S := S16x256) zeroOffsets]
  funext j
  refine blockResult_apply V c t ((cfg0.win 7).xinj (grid0.coords t) j) (((cfg0.win 7).blk t).view.emb j) ?_ ?_
  · show win0_7.index t (0 : Fin 2) * 256 + 1 * (j 0).val = t.val % 16 * 256 + (j 0).val
    rw [e0]; omega
  · show win0_7.index t (1 : Fin 2) * 256 + 1 * (j 1).val = t.val / 16 * 256 + (j 1).val
    rw [e1]; omega

/-- An index of the hidden array is in point `t`'s block iff each coordinate is in the block's range on its axis. -/
private theorem mem_block0 (t : Fin cfg0.N) (i : S4096x11008.Idx) :
    i ∈ ((cfg0.win 7).blk t).view.set
      ↔ ∀ a : Fin 2, win0_7.index t a * S256x256.size a ≤ (i a).val ∧ (i a).val < win0_7.index t a * S256x256.size a + S256x256.size a := by
  show i ∈ ((View.whole main_v14).slice (win0_7.rect t)).set ↔ _
  rw [View.set_slice_whole, Rect.mem_set_unit]
  exact Iff.rfl

/-- THE COVER: row `r`, hidden unit `h` is in the block of the point `16·(h / 256) + r / 256`, which is written back (every
    point's block is). -/
private theorem covered0 (i : S4096x11008.Idx) :
    ∃ t : Fin cfg0.N, (cfg0.win 7).flush t = true ∧ i ∈ ((cfg0.win 7).blk t).view.set := by
  have hi0 : (i 0).val < 4096 := (i 0).isLt
  have hi1 : (i 1).val < 11008 := (i 1).isLt
  have hN : cfg0.N = 688 := N_0
  obtain ⟨t, ht⟩ : ∃ t : Fin cfg0.N, t.val = 16 * ((i 1).val / 256) + (i 0).val / 256 :=
    ⟨⟨16 * ((i 1).val / 256) + (i 0).val / 256, by rw [hN]; omega⟩, rfl⟩
  obtain ⟨-, -, -, -, -, -, -, -, -, -, -, -, -, -, e0, e1⟩ := blockIndex0 t
  refine ⟨t, flush0_7 t, ?_⟩
  rw [mem_block0]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 256 ≤ (i 1).val ∧ (i 1).val < win0_7.index t (1 : Fin 2) * 256 + 256
    rw [e1, ht]; omega

/-- THE HIDDEN ARRAY at row `r`, hidden unit `h`, from the arrays region 0 finds. -/
theorem hidden_eq (c : Dev nD) (r : Fin 4096) (h : Fin 11008) :
    (dat0 (F := Ideal) V c).arrAt 7 cfg0.N (ix2 r h)
      = Cert.Spec.swiglu
          (Cert.Spec.proj (fun e : Fin 4096 => (V c main_v1 (ix2 r e) : EReal)) (fun e => (V c main_v2 (ix2 h e) : EReal))
            (fun (k : Fin 16) e => (V c main_v5 (ix2 k e) : EReal)) (fun k => (V c main_v9 (ix2 k h) : EReal)))
          (Cert.Spec.proj (fun e : Fin 4096 => (V c main_v1 (ix2 r e) : EReal)) (fun e => (V c main_v3 (ix2 h e) : EReal))
            (fun (k : Fin 16) e => (V c main_v6 (ix2 k e) : EReal)) (fun k => (V c main_v11 (ix2 k h) : EReal))) := by
  have hfin : (dat0 (F := Ideal) V c).arrAt 7 cfg0.N = hiddenArr V c :=
    (dat0 (F := Ideal) V c).arrAt_eq_of_cover 7 (hiddenArr V c) (fun t _ => flushed0_eq V c t) (covered0)
  rw [hfin]
  rfl

end Cert.KernelIdeal.Frame

end
-- ==== Proof.IdealPieces1.lean ====
/-
  Region 1: what each control case leaves in the two accumulators and in the output block, as the body's own
  arithmetic of the blocks it loaded — at any float instance.
-/
import proofs.«180041_j26250840113719_1_alg».proof.Proof.IdealRegion1
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The zero offset of a rank-2 block, as the constant function. -/
private theorem hz : (![0, 0] : Fin 2 → Nat) = fun _ => 0 := funext fun a => by fin_cases a <;> rfl

/-- A first tile leaves in the main accumulator the tile's product added to the cleared accumulator. -/
theorem sout1_A_0_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16) :
    sout1_A_0 c i arg2 harg2 arg3 harg3 arg4 harg4 arg5 harg5 arg6 harg6 arg7 harg7 arg8 harg8 hc0 hc1 x0 x1 x2 x3 = k1_pay4 x0 x1 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  sl_unfold_words
  -- Two stores, each over the whole block: the later one decides the contents, and the accumulator value it was
  -- computed from is what the earlier (clearing) store had left.
  rw [View.canon_cons_unit_zero (S := S256x4096) hz, View.readCov_unit_zero (S := S256x4096) _ hz]
  -- Each remaining load is of a whole input block at zero offsets, so it reads that block.
  simp only [View.readAt_eq_ld, harg2.read_unread, harg3.read_unread, View.ld_unit_zero (S := S256x256) hz, View.ld_unit_zero (S := S4096x256) hz]

/-- A first tile leaves in the rank-16 accumulator the tile's product added to the cleared accumulator. -/
theorem sout1_A_1_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : cond1_0 i) (hc1 : ¬cond1_1 i) (x0 : Vec F S256x256 .bf16) (x1 : Vec F S4096x256 .bf16) (x2 : Vec F S16x256 .bf16) (x3 : Vec F S16x4096 .bf16) :
    sout1_A_1 c i arg2 harg2 arg3 harg3 arg4 harg4 arg5 harg5 arg6 harg6 arg7 harg7 arg8 harg8 hc0 hc1 x0 x1 x2 x3 = k1_pay5 x0 x2 (k1_pay2 (F := F)) := by
  unfold sout1_A_1
  rw [View.read_writes_eq_canon _ _ _ (scover1_A_1 c i arg2 harg2 arg3 harg3 arg4 harg4 arg5 harg5 arg6 harg6 arg7 harg7 arg8 harg8 hc0 hc1 x0 x1 x2 x3)]
  unfold kernelRun1_A
  dsimp only
  sl_unfold_words
  -- Two stores, each over the whole block: the later one decides the contents, and the accumulator value it was
  -- computed from is what the earlier (clearing) store had left.
  rw [View.canon_cons_unit_zero (S := S256x16) hz, View.readCov_unit_zero (S := S256x16) _ hz]
  -- Each remaining load is of a whole input block at zero offsets, so it reads that block.
  simp only [View.readAt_eq_ld, harg2.read_unread, harg4.read_unread, View.ld_unit_zero (S := S256x256) hz, View.ld_unit_zero (S := S16x256) hz]

/-- A middle tile adds the tile's product to what the main accumulator held. -/
theorem sout1_B_0_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) :
    sout1_B_0 c i arg2 harg2 arg3 harg3 arg4 harg4 arg5 harg5 arg6 harg6 arg7 harg7 arg8 harg8 hc0 hc1 x0 x1 x2 x3 xs0 xs1 = k1_pay4 x0 x1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0 xs1)]
  unfold kernelRun1_B
  dsimp only
  sl_unfold_words
  -- One store over the whole block: the block holds its payload; each load is of a whole block at zero offsets
  -- (the inputs', and the accumulator as this point found it), so it reads that block.
  rw [View.canon_unit_zero hz]
  simp only [View.readAt_eq_ld, harg2.read_unread, harg3.read_unread, harg7.read_unread, View.ld_unit_zero (S := S256x256) hz, View.ld_unit_zero (S := S4096x256) hz, View.ld_unit_zero (S := S256x4096) hz]

theorem sout1_B_1_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : ¬cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) :
    sout1_B_1 c i arg2 harg2 arg3 harg3 arg4 harg4 arg5 harg5 arg6 harg6 arg7 harg7 arg8 harg8 hc0 hc1 x0 x1 x2 x3 xs0 xs1 = k1_pay5 x0 x2 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 x3 xs0 xs1)]
  unfold kernelRun1_B
  dsimp only
  sl_unfold_words
  -- One store over the whole block: the block holds its payload; each load is of a whole block at zero offsets
  -- (the inputs', and the accumulator as this point found it), so it reads that block.
  rw [View.canon_unit_zero hz]
  simp only [View.readAt_eq_ld, harg2.read_unread, harg4.read_unread, harg8.read_unread, View.ld_unit_zero (S := S256x256) hz, View.ld_unit_zero (S := S16x256) hz, View.ld_unit_zero (S := S256x16) hz]

/-- A last tile does the same to the two accumulators, -/
theorem sout1_C_0_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) :
    sout1_C_0 c i arg2 harg2 arg3 harg3 arg4 harg4 arg5 harg5 arg6 harg6 arg7 harg7 arg8 harg8 hc0 hc1 x0 x1 x2 x3 xs0 xs1 = k1_pay4 x0 x1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0 xs1)]
  unfold kernelRun1_C
  dsimp only
  sl_unfold_words
  -- One store over the whole block: the block holds its payload; each load is of a whole block at zero offsets
  -- (the inputs', and the accumulator as this point found it), so it reads that block.
  rw [View.canon_unit_zero hz]
  simp only [View.readAt_eq_ld, harg2.read_unread, harg3.read_unread, harg7.read_unread, View.ld_unit_zero (S := S256x256) hz, View.ld_unit_zero (S := S4096x256) hz, View.ld_unit_zero (S := S256x4096) hz]

theorem sout1_C_1_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) :
    sout1_C_1 c i arg2 harg2 arg3 harg3 arg4 harg4 arg5 harg5 arg6 harg6 arg7 harg7 arg8 harg8 hc0 hc1 x0 x1 x2 x3 xs0 xs1 = k1_pay5 x0 x2 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 x3 xs0 xs1)]
  unfold kernelRun1_C
  dsimp only
  sl_unfold_words
  -- One store over the whole block: the block holds its payload; each load is of a whole block at zero offsets
  -- (the inputs', and the accumulator as this point found it), so it reads that block.
  rw [View.canon_unit_zero hz]
  simp only [View.readAt_eq_ld, harg2.read_unread, harg4.read_unread, harg8.read_unread, View.ld_unit_zero (S := S256x256) hz, View.ld_unit_zero (S := S16x256) hz, View.ld_unit_zero (S := S256x16) hz]

/-- and stores as the output block the updated main accumulator plus the updated rank-16 accumulator times the
    transposed factor. -/
theorem out1_C_4_eq (c : Dev nD) (i : grid1.Coords) (arg2 : Memref sig .tc .vmem S256x256 .bf16) (harg2 : arg2.IsWhole) (arg3 : Memref sig .tc .vmem S4096x256 .bf16) (harg3 : arg3.IsWhole) (arg4 : Memref sig .tc .vmem S16x256 .bf16) (harg4 : arg4.IsWhole) (arg5 : Memref sig .tc .vmem S16x4096 .bf16) (harg5 : arg5.IsWhole) (arg6 : Memref sig .tc .vmem S256x4096 .f32) (harg6 : arg6.IsWhole) (arg7 : Memref sig .tc .vmem S256x4096 .f32) (harg7 : arg7.IsWhole) (arg8 : Memref sig .tc .vmem S256x16 .f32) (harg8 : arg8.IsWhole) (hc0 : ¬cond1_0 i) (hc1 : cond1_1 i) (x0 : Vec F S256x256 .bf16) (x1 : Vec F S4096x256 .bf16) (x2 : Vec F S16x256 .bf16) (x3 : Vec F S16x4096 .bf16) (xs0 : Vec F S256x4096 .f32) (xs1 : Vec F S256x16 .f32) :
    out1_C_4 c i arg2 harg2 arg3 harg3 arg4 harg4 arg5 harg5 arg6 harg6 arg7 harg7 arg8 harg8 hc0 hc1 x0 x1 x2 x3 xs0 xs1 = k1_pay6 x3 (k1_pay5 x0 x2 xs1) (k1_pay4 x0 x1 xs0) := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0 xs1)]
  unfold kernelRun1_C
  dsimp only
  sl_unfold_words
  -- One store over the whole output block: it holds its payload. That payload was computed from the transposed
  -- factor's block and from the two accumulators read back AFTER this point's updates, each of which was one store
  -- over the whole accumulator; so what it read is the two updated accumulators themselves.
  rw [View.canon_unit_zero hz]
  simp only [View.readAt_eq_ld, harg2.read_unread, harg3.read_unread, harg4.read_unread, harg5.read_unread, harg7.read_unread, harg8.read_unread, View.ld_unit_zero (S := S256x256) hz, View.ld_unit_zero (S := S4096x256) hz, View.ld_unit_zero (S := S16x256) hz, View.ld_unit_zero (S := S16x4096) hz, View.ld_unit_zero (S := S256x4096) hz, View.ld_unit_zero (S := S256x16) hz, View.readCov_unit_zero (S := S256x4096) _ hz, View.readCov_unit_zero (S := S256x16) _ hz]

end Cert.KernelIdeal.Frame

end
-- ==== Proof.IdealValue1.lean ====
/-
  Region 1's output array after the run, at the extended reals: each entry is the down projection with its low-rank
  correction of the hidden row, the sum over the 11008 hidden units having been taken 43 tiles of 256 at a time.
-/
import proofs.«180041_j26250840113719_1_alg».proof.Proof.IdealPieces1
import proofs.«180041_j26250840113719_1_alg».proof.Proof.Spec
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The three matrix products of a tile, read at an entry -/

/-- Main product, left operand: row of the output entry, -/
private theorem lhs_main_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
/-- column the summation index; -/
private theorem lhs_main_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
/-- right operand: row the output entry's column, -/
private theorem rhs_main_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
/-- column the summation index. -/
private theorem rhs_main_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q

/-- The tile's main product added to an accumulator: entry (p, d) gains the sum over the tile's 256 hidden units of
    the hidden block's row p times the weight block's row d. -/
private theorem pay4_apply (x0 : Vec Ideal S256x256 .bf16) (x1 : Vec Ideal S4096x256 .bf16) (acc : Vec Ideal S256x4096 .f32)
    (p : Fin 256) (d : Fin 4096) :
    k1_pay4 x0 x1 acc (ix2 p d) = acc (ix2 p d) + ∑ h' : Fin 256, x0 (ix2 p h') * x1 (ix2 d h') := by
  unfold k1_pay4 k1_pay3
  simp only [shapeCast_self]
  rw [addf_apply]
  refine congrArg (acc (ix2 p d) + ·) ?_
  simp only [matmul]
  rw [Ideal.matmul_constant_zero_apply, ← Equiv.sum_comp (ValueIdx.contrEquiv1 dot_S256x256_S4096x256_S256x4096_1_1_0_0_n_n 256 rfl rfl).symm]
  refine Finset.sum_congr rfl fun k _ => ?_
  have hk := ValueIdx.contrEquiv1_symm_val dot_S256x256_S4096x256_S256x4096_1_1_0_0_n_n 256 rfl rfl k
  have el : dot_S256x256_S4096x256_S256x4096_1_1_0_0_n_n.lhsIdx (ix2 p d) ((ValueIdx.contrEquiv1 dot_S256x256_S4096x256_S256x4096_1_1_0_0_n_n 256 rfl rfl).symm k) = ix2 p k := funext fun a => Fin.ext (by
    match a with
    | ⟨0, _⟩ => exact lhs_main_0 _ _
    | ⟨1, _⟩ => exact (lhs_main_1 _ _).trans hk)
  have er : dot_S256x256_S4096x256_S256x4096_1_1_0_0_n_n.rhsIdx (ix2 p d) ((ValueIdx.contrEquiv1 dot_S256x256_S4096x256_S256x4096_1_1_0_0_n_n 256 rfl rfl).symm k) = ix2 d k := funext fun a => Fin.ext (by
    match a with
    | ⟨0, _⟩ => exact rhs_main_0 _ _
    | ⟨1, _⟩ => exact (rhs_main_1 _ _).trans hk)
  rw [el, er]

/-- Rank-16 product, left operand: row of the output entry, -/
private theorem lhs_low_0 (i : S256x16.Idx) (q : dot_S256x256_S16x256_S256x16_1_1_0_0_n_n.contr.Idx) :
    (dot_S256x256_S16x256_S256x16_1_1_0_0_n_n.lhsIdx i q 0).val = (i 0).val := by
  unfold DotDims.lhsIdx
  rw [dif_neg (show ¬(0 : Fin S256x256.rank) ∈ dot_S256x256_S16x256_S256x16_1_1_0_0_n_n.lhsBatch by decide), dif_pos (show (0 : Fin S256x256.rank) ∈ dot_S256x256_S16x256_S256x16_1_1_0_0_n_n.lhsNonContracting by decide)]
  rfl
/-- column the summation index; -/
private theorem lhs_low_1 (i : S256x16.Idx) (q : dot_S256x256_S16x256_S256x16_1_1_0_0_n_n.contr.Idx) :
    (dot_S256x256_S16x256_S256x16_1_1_0_0_n_n.lhsIdx i q 1).val = (q ⟨0, by decide⟩).val :=
  dot_S256x256_S16x256_S256x16_1_1_0_0_n_n.lhsIdx_val_of_single rfl i q
/-- right operand: row the output entry's column, -/
private theorem rhs_low_0 (i : S256x16.Idx) (q : dot_S256x256_S16x256_S256x16_1_1_0_0_n_n.contr.Idx) :
    (dot_S256x256_S16x256_S256x16_1_1_0_0_n_n.rhsIdx i q 0).val = (i 1).val := by
  unfold DotDims.rhsIdx
  rw [dif_neg (show ¬(0 : Fin S16x256.rank) ∈ dot_S256x256_S16x256_S256x16_1_1_0_0_n_n.rhsBatch by decide), dif_pos (show (0 : Fin S16x256.rank) ∈ dot_S256x256_S16x256_S256x16_1_1_0_0_n_n.rhsNonContracting by decide)]
  rfl
/-- column the summation index. -/
private theorem rhs_low_1 (i : S256x16.Idx) (q : dot_S256x256_S16x256_S256x16_1_1_0_0_n_n.contr.Idx) :
    (dot_S256x256_S16x256_S256x16_1_1_0_0_n_n.rhsIdx i q 1).val = (q ⟨0, by decide⟩).val :=
  dot_S256x256_S16x256_S256x16_1_1_0_0_n_n.rhsIdx_val_of_single rfl i q

/-- The tile's rank-16 product added to an accumulator: entry (p, k) gains the sum over the tile's 256 hidden units of
    the hidden block's row p times the factor block's row k. -/
private theorem pay5_apply (x0 : Vec Ideal S256x256 .bf16) (x2 : Vec Ideal S16x256 .bf16) (acc : Vec Ideal S256x16 .f32)
    (p : Fin 256) (k : Fin 16) :
    k1_pay5 x0 x2 acc (ix2 p k) = acc (ix2 p k) + ∑ h' : Fin 256, x0 (ix2 p h') * x2 (ix2 k h') := by
  unfold k1_pay5 k1_pay3
  simp only [shapeCast_self]
  rw [addf_apply]
  refine congrArg (acc (ix2 p k) + ·) ?_
  simp only [matmul]
  rw [Ideal.matmul_constant_zero_apply, ← Equiv.sum_comp (ValueIdx.contrEquiv1 dot_S256x256_S16x256_S256x16_1_1_0_0_n_n 256 rfl rfl).symm]
  refine Finset.sum_congr rfl fun s _ => ?_
  have hs := ValueIdx.contrEquiv1_symm_val dot_S256x256_S16x256_S256x16_1_1_0_0_n_n 256 rfl rfl s
  have el : dot_S256x256_S16x256_S256x16_1_1_0_0_n_n.lhsIdx (ix2 p k) ((ValueIdx.contrEquiv1 dot_S256x256_S16x256_S256x16_1_1_0_0_n_n 256 rfl rfl).symm s) = ix2 p s := funext fun a => Fin.ext (by
    match a with
    | ⟨0, _⟩ => exact lhs_low_0 _ _
    | ⟨1, _⟩ => exact (lhs_low_1 _ _).trans hs)
  have er : dot_S256x256_S16x256_S256x16_1_1_0_0_n_n.rhsIdx (ix2 p k) ((ValueIdx.contrEquiv1 dot_S256x256_S16x256_S256x16_1_1_0_0_n_n 256 rfl rfl).symm s) = ix2 k s := funext fun a => Fin.ext (by
    match a with
    | ⟨0, _⟩ => exact rhs_low_0 _ _
    | ⟨1, _⟩ => exact (rhs_low_1 _ _).trans hs)
  rw [el, er]

/-- Correction product, left operand: row of the output entry, -/
private theorem lhs_corr_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
/-- column the summation index; -/
private theorem lhs_corr_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
/-- right operand: row the summation index, -/
private theorem rhs_corr_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
/-- column the output entry's column. -/
private theorem rhs_corr_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The stored block: entry (p, d) is the main accumulator's plus the sum over the rank of the rank-16 accumulator's
    row p times the transposed factor's column d (the narrowing to the short format is the identity on extended reals). -/
private theorem pay6_apply (x3 : Vec Ideal S16x4096 .bf16) (accR : Vec Ideal S256x16 .f32) (accM : Vec Ideal S256x4096 .f32)
    (p : Fin 256) (d : Fin 4096) :
    k1_pay6 x3 accR accM (ix2 p d) = accM (ix2 p d) + ∑ k : Fin 16, accR (ix2 p k) * x3 (ix2 k d) := by
  unfold k1_pay6
  simp only [shapeCast_self]
  rw [addf_apply]
  refine congrArg (accM (ix2 p d) + ·) ?_
  simp only [matmul]
  rw [Ideal.matmul_constant_zero_apply, ← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ix2 p d) ((ValueIdx.contrEquiv1 dot_S256x16_S16x4096_S256x4096_1_0_0_1_n_n 16 rfl rfl).symm k) = ix2 p k := funext fun a => Fin.ext (by
    match a with
    | ⟨0, _⟩ => exact lhs_corr_0 _ _
    | ⟨1, _⟩ => exact (lhs_corr_1 _ _).trans hk)
  have er : dot_S256x16_S16x4096_S256x4096_1_0_0_1_n_n.rhsIdx (ix2 p d) ((ValueIdx.contrEquiv1 dot_S256x16_S16x4096_S256x4096_1_0_0_1_n_n 16 rfl rfl).symm k) = ix2 k d := funext fun a => Fin.ext (by
    match a with
    | ⟨0, _⟩ => exact (rhs_corr_0 _ _).trans hk
    | ⟨1, _⟩ => exact rhs_corr_1 _ _)
  rw [el, er]
  rfl

/-- A cleared main accumulator reads zero everywhere, -/
private theorem pay1_apply (i : S256x4096.Idx) : k1_pay1 (F := Ideal) i = 0 := by
  unfold k1_pay1
  simp only [shapeCast_self]
  exact Ideal.ofBits_zero_f32
/-- and so does a cleared rank-16 accumulator. -/
private theorem pay2_apply (i : S256x16.Idx) : k1_pay2 (F := Ideal) i = 0 := by
  unfold k1_pay2
  simp only [shapeCast_self]
  exact Ideal.ofBits_zero_f32

/-! ## The arrays, their blocks, and where a block's entry sits in its array -/

/-- The hidden activations (4096 rows by 11008 hidden units), the down weight (4096 output units by 11008), the rank-16
    factor (16 by 11008) and the transposed factor (16 by 4096 output units), as the region finds them. -/
private abbrev hidA (c : Dev nD) : Vec Ideal S4096x11008 .bf16 := V c main_v14
private abbrev dwA (c : Dev nD) : Vec Ideal S4096x11008 .bf16 := V c main_v4
private abbrev daA (c : Dev nD) : Vec Ideal S16x11008 .bf16 := V c main_v7
private abbrev dbA (c : Dev nD) : Vec Ideal S16x4096 .bf16 := V c main_v13

/-- Their blocks at point `t`. -/
private abbrev xblk (c : Dev nD) (t : Fin cfg1.N) : Vec Ideal S256x256 .bf16 := iblk1 V c 0 t
private abbrev wblk (c : Dev nD) (t : Fin cfg1.N) : Vec Ideal S4096x256 .bf16 := iblk1 V c 1 t
private abbrev ablk (c : Dev nD) (t : Fin cfg1.N) : Vec Ideal S16x256 .bf16 := iblk1 V c 2 t
private abbrev bblk (c : Dev nD) (t : Fin cfg1.N) : Vec Ideal S16x4096 .bf16 := iblk1 V c 3 t

/-- The block indices at point `t` (row block `t / 43`, tile `t % 43`): the hidden block moves with both, the weight
    and factor blocks with the tile only, the transposed factor is one block, the output block moves with the row block. -/
private theorem idx_facts : ∀ t : Fin cfg1.N,
    win1_0.index t (0 : Fin 2) = t.val / 43 ∧ win1_0.index t (1 : Fin 2) = t.val % 43
    ∧ win1_1.index t (0 : Fin 2) = 0 ∧ win1_1.index t (1 : Fin 2) = t.val % 43
    ∧ win1_2.index t (0 : Fin 2) = 0 ∧ win1_2.index t (1 : Fin 2) = t.val % 43
    ∧ win1_3.index t (0 : Fin 2) = 0 ∧ win1_3.index t (1 : Fin 2) = 0
    ∧ win1_4.index t (0 : Fin 2) = t.val / 43 ∧ win1_4.index t (1 : Fin 2) = 0 :=
  (by decide +kernel : ∀ t : Fin grid1.N, _)

/-- Entry (p, h') of the hidden block at `t` is the hidden array's at row `256·(t/43) + p`, unit `256·(t%43) + h'`. -/
private theorem xblk_apply (c : Dev nD) (t : Fin cfg1.N) (p h' : Fin 256) (r : Fin 4096) (h : Fin 11008)
    (hr : r.val = 256 * (t.val / 43) + p.val) (hh : h.val = 256 * (t.val % 43) + h'.val) :
    xblk V c t (ix2 p h') = hidA V c (ix2 r h) := by
  obtain ⟨e0, e1, -⟩ := idx_facts t
  unfold xblk iblk1
  rw [View.read_apply]
  show V c main_v14 _ = V c main_v14 _
  congr 1
  funext a
  apply Fin.ext
  match a with
  | ⟨0, _⟩ => show win1_0.index t (0 : Fin 2) * 256 + 1 * p.val = r.val; rw [e0]; omega
  | ⟨1, _⟩ => show win1_0.index t (1 : Fin 2) * 256 + 1 * h'.val = h.val; rw [e1]; omega

/-- Entry (d, h') of the weight block at `t` is the weight's at output unit `d`, hidden unit `256·(t%43) + h'`. -/
private theorem wblk_apply (c : Dev nD) (t : Fin cfg1.N) (d : Fin 4096) (h' : Fin 256) (h : Fin 11008)
    (hh : h.val = 256 * (t.val % 43) + h'.val) :
    wblk V c t (ix2 d h') = dwA V c (ix2 d h) := by
  obtain ⟨-, -, e0, e1, -⟩ := idx_facts t
  unfold wblk iblk1
  rw [View.read_apply]
  show V c main_v4 _ = V c main_v4 _
  congr 1
  funext a
  apply Fin.ext
  match a with
  | ⟨0, _⟩ => show win1_1.index t (0 : Fin 2) * 4096 + 1 * d.val = d.val; rw [e0]; omega
  | ⟨1, _⟩ => show win1_1.index t (1 : Fin 2) * 256 + 1 * h'.val = h.val; rw [e1]; omega

/-- Entry (k, h') of the factor block at `t` is the factor's at rank index `k`, hidden unit `256·(t%43) + h'`. -/
private theorem ablk_apply (c : Dev nD) (t : Fin cfg1.N) (k : Fin 16) (h' : Fin 256) (h : Fin 11008)
    (hh : h.val = 256 * (t.val % 43) + h'.val) :
    ablk V c t (ix2 k h') = daA V c (ix2 k h) := by
  obtain ⟨-, -, -, -, e0, e1, -⟩ := idx_facts t
  unfold ablk iblk1
  rw [View.read_apply]
  show V c main_v7 _ = V c main_v7 _
  congr 1
  funext a
  apply Fin.ext
  match a with
  | ⟨0, _⟩ => show win1_2.index t (0 : Fin 2) * 16 + 1 * k.val = k.val; rw [e0]; omega
  | ⟨1, _⟩ => show win1_2.index t (1 : Fin 2) * 256 + 1 * h'.val = h.val; rw [e1]; omega

/-- The transposed factor's one block is the whole array. -/
private theorem bblk_apply (c : Dev nD) (t : Fin cfg1.N) (k : Fin 16) (d : Fin 4096) :
    bblk V c t (ix2 k d) = dbA V c (ix2 k d) := by
  obtain ⟨-, -, -, -, -, -, e0, e1, -⟩ := idx_facts t
  unfold bblk iblk1
  rw [View.read_apply]
  show V c main_v13 _ = V c main_v13 _
  congr 1
  funext a
  apply Fin.ext
  match a with
  | ⟨0, _⟩ => show win1_3.index t (0 : Fin 2) * 16 + 1 * k.val = k.val; rw [e0]; omega
  | ⟨1, _⟩ => show win1_3.index t (1 : Fin 2) * 4096 + 1 * d.val = d.val; rw [e1]; omega

/-! ## The two accumulators after each point: cleared and charged at a first tile, charged over the point before elsewhere -/

private theorem accM_first (c : Dev nD) (t : Fin cfg1.N) (h0 : t.val % 43 = 0) :
    (outsAt1 V c t.val t.isLt).2.1 = k1_pay4 (xblk V c t) (wblk V c t) (k1_pay1 (F := Ideal)) := by
  have h1 : ¬t.val % 43 = 42 := by omega
  rw [outsAt1_A V c t h0 h1]
  dsimp only
  exact sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

private theorem accR_first (c : Dev nD) (t : Fin cfg1.N) (h0 : t.val % 43 = 0) :
    (outsAt1 V c t.val t.isLt).2.2 = k1_pay5 (xblk V c t) (ablk V c t) (k1_pay2 (F := Ideal)) := by
  have h1 : ¬t.val % 43 = 42 := by omega
  rw [outsAt1_A V c t h0 h1]
  dsimp only
  exact sout1_A_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)

private theorem accM_step (c : Dev nD) (t : Fin cfg1.N) (h0 : ¬t.val % 43 = 0) :
    (outsAt1 V c t.val t.isLt).2.1
      = k1_pay4 (xblk V c t) (wblk V c t) (outsAt1 V c (t.val - 1) (Nat.lt_of_le_of_lt (Nat.sub_le _ _) t.isLt)).2.1 := by
  by_cases h1 : t.val % 43 = 42
  · rw [outsAt1_C V c t h0 h1]
    dsimp only
    exact sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2
  · rw [outsAt1_B V c t h0 h1]
    dsimp only
    exact sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

private theorem accR_step (c : Dev nD) (t : Fin cfg1.N) (h0 : ¬t.val % 43 = 0) :
    (outsAt1 V c t.val t.isLt).2.2
      = k1_pay5 (xblk V c t) (ablk V c t) (outsAt1 V c (t.val - 1) (Nat.lt_of_le_of_lt (Nat.sub_le _ _) t.isLt)).2.2 := by
  by_cases h1 : t.val % 43 = 42
  · rw [outsAt1_C V c t h0 h1]
    dsimp only
    exact sout1_C_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2
  · rw [outsAt1_B V c t h0 h1]
    dsimp only
    exact sout1_B_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-- At a last tile the output block is the correction applied to this point's two accumulators. -/
private theorem out_last (c : Dev nD) (t : Fin cfg1.N) (h1 : t.val % 43 = 42) :
    (outsAt1 V c t.val t.isLt).1
      = k1_pay6 (bblk V c t) (outsAt1 V c t.val t.isLt).2.2 (outsAt1 V c t.val t.isLt).2.1 := by
  have h0 : ¬t.val % 43 = 0 := by omega
  rw [outsAt1_C V c t h0 h1]
  dsimp only
  rw [sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
    sout1_C_1_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2]
  exact out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-! ## The accumulators as sums over the tiles so far -/

/-- What point `n` adds to entry (p, d) of the main accumulator: its hidden block's row p against its weight block's row d. -/
private def tileM (c : Dev nD) (n : ℕ) (p : Fin 256) (d : Fin 4096) : EReal :=
  if hn : n < cfg1.N then ∑ h' : Fin 256, xblk V c ⟨n, hn⟩ (ix2 p h') * wblk V c ⟨n, hn⟩ (ix2 d h') else 0

/-- What point `n` adds to entry (p, k) of the rank-16 accumulator: its hidden block's row p against its factor block's row k. -/
private def tileR (c : Dev nD) (n : ℕ) (p : Fin 256) (k : Fin 16) : EReal :=
  if hn : n < cfg1.N then ∑ h' : Fin 256, xblk V c ⟨n, hn⟩ (ix2 p h') * ablk V c ⟨n, hn⟩ (ix2 k h') else 0

/-- The main accumulator after point `t` is the fold, from the first tile of `t`'s row block, of "add this tile's product". -/
private theorem accM_fold (c : Dev nD) (t : Fin cfg1.N) (h' : 43 * (t.val / 43) + t.val % 43 < cfg1.N) :
    (outsAt1 V c t.val t.isLt).2.1
      = Pipeline.accAt (N := cfg1.N) (α := Vec Ideal S256x4096 .f32)
          (fun n hn => k1_pay4 (xblk V c ⟨n, hn⟩) (wblk V c ⟨n, hn⟩) (k1_pay1 (F := Ideal)))
          (fun n hn acc => k1_pay4 (xblk V c ⟨n, hn⟩) (wblk V c ⟨n, hn⟩) acc) (43 * (t.val / 43)) (t.val % 43) h' :=
  Pipeline.eq_accAt_of_mod (N := cfg1.N) (α := Vec Ideal S256x4096 .f32) (fun n hn => (outsAt1 V c n hn).2.1) 43 _ _
    (fun n hn h0 => accM_first V c ⟨n, hn⟩ h0)
    (fun n hn h0 => accM_step V c ⟨n + 1, hn⟩ h0)
    (by norm_num) t.val t.isLt h'

/-- The rank-16 accumulator likewise. -/
private theorem accR_fold (c : Dev nD) (t : Fin cfg1.N) (h' : 43 * (t.val / 43) + t.val % 43 < cfg1.N) :
    (outsAt1 V c t.val t.isLt).2.2
      = Pipeline.accAt (N := cfg1.N) (α := Vec Ideal S256x16 .f32)
          (fun n hn => k1_pay5 (xblk V c ⟨n, hn⟩) (ablk V c ⟨n, hn⟩) (k1_pay2 (F := Ideal)))
          (fun n hn acc => k1_pay5 (xblk V c ⟨n, hn⟩) (ablk V c ⟨n, hn⟩) acc) (43 * (t.val / 43)) (t.val % 43) h' :=
  Pipeline.eq_accAt_of_mod (N := cfg1.N) (α := Vec Ideal S256x16 .f32) (fun n hn => (outsAt1 V c n hn).2.2) 43 _ _
    (fun n hn h0 => accR_first V c ⟨n, hn⟩ h0)
    (fun n hn h0 => accR_step V c ⟨n + 1, hn⟩ h0)
    (by norm_num) t.val t.isLt h'

/-- So entry (p, d) of the main accumulator after point `t` is the sum of the addends of the tiles `0 … t % 43` of its row block. -/
private theorem accM_apply (c : Dev nD) (t : Fin cfg1.N) (p : Fin 256) (d : Fin 4096) :
    (outsAt1 V c t.val t.isLt).2.1 (ix2 p d)
      = 0 + ∑ s ∈ Finset.range (t.val % 43 + 1), tileM V c (43 * (t.val / 43) + s) p d := by
  have h' : 43 * (t.val / 43) + t.val % 43 < cfg1.N := by rw [Nat.div_add_mod]; exact t.isLt
  rw [accM_fold V c t h']
  refine Pipeline.accAt_add_apply (N := cfg1.N) (ι := S256x4096.Idx) (β := EReal) _ _ (fun _ => 0)
    (fun n i => tileM V c n ⟨(i 0).val, idx2_lt0 i⟩ ⟨(i 1).val, idx2_lt1 i⟩) (43 * (t.val / 43)) 42 ?_ ?_ (t.val % 43) (by omega) h' (ix2 p d)
  · intro h i
    obtain ⟨p, d, rfl⟩ : ∃ (p : Fin 256) (d : Fin 4096), i = ix2 p d := ⟨i 0, i 1, eq_ix2 i⟩
    refine (pay4_apply (xblk V c ⟨_, h⟩) (wblk V c ⟨_, h⟩) (k1_pay1 (F := Ideal)) p d).trans ?_
    rw [pay1_apply]
    show _ = 0 + tileM V c _ p d
    unfold tileM
    rw [dif_pos h]
  · intro n h acc i _ _
    obtain ⟨p, d, rfl⟩ : ∃ (p : Fin 256) (d : Fin 4096), i = ix2 p d := ⟨i 0, i 1, eq_ix2 i⟩
    refine (pay4_apply (xblk V c ⟨n, h⟩) (wblk V c ⟨n, h⟩) acc p d).trans ?_
    show _ = acc (ix2 p d) + tileM V c n p d
    unfold tileM
    rw [dif_pos h]

/-- and entry (p, k) of the rank-16 accumulator likewise. -/
private theorem accR_apply (c : Dev nD) (t : Fin cfg1.N) (p : Fin 256) (k : Fin 16) :
    (outsAt1 V c t.val t.isLt).2.2 (ix2 p k)
      = 0 + ∑ s ∈ Finset.range (t.val % 43 + 1), tileR V c (43 * (t.val / 43) + s) p k := by
  have h' : 43 * (t.val / 43) + t.val % 43 < cfg1.N := by rw [Nat.div_add_mod]; exact t.isLt
  rw [accR_fold V c t h']
  refine Pipeline.accAt_add_apply (N := cfg1.N) (ι := S256x16.Idx) (β := EReal) _ _ (fun _ => 0)
    (fun n i => tileR V c n ⟨(i 0).val, idx2_lt0 i⟩ ⟨(i 1).val, idx2_lt1 i⟩) (43 * (t.val / 43)) 42 ?_ ?_ (t.val % 43) (by omega) h' (ix2 p k)
  · intro h i
    obtain ⟨p, k, rfl⟩ : ∃ (p : Fin 256) (k : Fin 16), i = ix2 p k := ⟨i 0, i 1, eq_ix2 i⟩
    refine (pay5_apply (xblk V c ⟨_, h⟩) (ablk V c ⟨_, h⟩) (k1_pay2 (F := Ideal)) p k).trans ?_
    rw [pay2_apply]
    show _ = 0 + tileR V c _ p k
    unfold tileR
    rw [dif_pos h]
  · intro n h acc i _ _
    obtain ⟨p, k, rfl⟩ : ∃ (p : Fin 256) (k : Fin 16), i = ix2 p k := ⟨i 0, i 1, eq_ix2 i⟩
    refine (pay5_apply (xblk V c ⟨n, h⟩) (ablk V c ⟨n, h⟩) acc p k).trans ?_
    show _ = acc (ix2 p k) + tileR V c n p k
    unfold tileR
    rw [dif_pos h]

/-! ## A row block's 43 tiles are the whole hidden axis -/

/-- Tile `s` of row block `q` adds to entry (p, d) of the main accumulator the part of row `256·q + p`'s product with the
    weight's row `d` that runs over the tile's hidden units `256·s … 256·s + 255`. -/
private theorem tileM_eq (c : Dev nD) (q : Fin 16) (s : Fin 43) (p : Fin 256) (d r : Fin 4096) (hr : r.val = 256 * q.val + p.val) :
    tileM V c (43 * q.val + s.val) p d
      = ∑ h' : Fin 256, hidA V c (ix2 r (Cert.Spec.tileEquiv (s, h'))) * dwA V c (ix2 d (Cert.Spec.tileEquiv (s, h'))) := by
  have hN : cfg1.N = 688 := N_1
  have hq := q.isLt
  have hs := s.isLt
  have hn : 43 * q.val + s.val < cfg1.N := by rw [hN]; omega
  unfold tileM
  rw [dif_pos hn]
  refine Finset.sum_congr rfl fun h' _ => ?_
  have hh := Cert.Spec.tileEquiv_val s h'
  rw [xblk_apply V c ⟨43 * q.val + s.val, hn⟩ p h' r (Cert.Spec.tileEquiv (s, h'))
        (by show r.val = 256 * ((43 * q.val + s.val) / 43) + p.val; omega)
        (by show (Cert.Spec.tileEquiv (s, h')).val = 256 * ((43 * q.val + s.val) % 43) + h'.val; omega),
      wblk_apply V c ⟨43 * q.val + s.val, hn⟩ d h' (Cert.Spec.tileEquiv (s, h'))
        (by show (Cert.Spec.tileEquiv (s, h')).val = 256 * ((43 * q.val + s.val) % 43) + h'.val; omega)]

/-- The same for the rank-16 accumulator, against the factor's row `k`. -/
private theorem tileR_eq (c : Dev nD) (q : Fin 16) (s : Fin 43) (p : Fin 256) (k : Fin 16) (r : Fin 4096) (hr : r.val = 256 * q.val + p.val) :
    tileR V c (43 * q.val + s.val) p k
      = ∑ h' : Fin 256, hidA V c (ix2 r (Cert.Spec.tileEquiv (s, h'))) * daA V c (ix2 k (Cert.Spec.tileEquiv (s, h'))) := by
  have hN : cfg1.N = 688 := N_1
  have hq := q.isLt
  have hs := s.isLt
  have hn : 43 * q.val + s.val < cfg1.N := by rw [hN]; omega
  unfold tileR
  rw [dif_pos hn]
  refine Finset.sum_congr rfl fun h' _ => ?_
  have hh := Cert.Spec.tileEquiv_val s h'
  rw [xblk_apply V c ⟨43 * q.val + s.val, hn⟩ p h' r (Cert.Spec.tileEquiv (s, h'))
        (by show r.val = 256 * ((43 * q.val + s.val) / 43) + p.val; omega)
        (by show (Cert.Spec.tileEquiv (s, h')).val = 256 * ((43 * q.val + s.val) % 43) + h'.val; omega),
      ablk_apply V c ⟨43 * q.val + s.val, hn⟩ k h' (Cert.Spec.tileEquiv (s, h'))
        (by show (Cert.Spec.tileEquiv (s, h')).val = 256 * ((43 * q.val + s.val) % 43) + h'.val; omega)]

/-! ## The stored block, the result array -/

/-- The down projection with its low-rank correction of the hidden row `r`, at output unit `d`. -/
private def projAt (c : Dev nD) (r d : Fin 4096) : EReal :=
  Cert.Spec.proj (fun h : Fin 11008 => (V c main_v14 (ix2 r h) : EReal)) (fun h => (V c main_v4 (ix2 d h) : EReal))
    (fun (k : Fin 16) h => (V c main_v7 (ix2 k h) : EReal)) (fun k => (V c main_v13 (ix2 k d) : EReal))

/-- At a last tile, entry (p, d) of the stored block is that projection of row `256·(t/43) + p`: both accumulators hold
    their whole sums over the hidden axis (zero plus the 43 tiles' addends), and the correction multiplies the rank-16
    one by the transposed factor's column. -/
private theorem out_apply (c : Dev nD) (t : Fin cfg1.N) (h1 : t.val % 43 = 42) (p : Fin 256) (d r : Fin 4096)
    (hr : r.val = 256 * (t.val / 43) + p.val) :
    (outsAt1 V c t.val t.isLt).1 (ix2 p d) = projAt V c r d := by
  have hN : cfg1.N = 688 := N_1
  have ht := t.isLt
  have hq : t.val / 43 < 16 := by omega
  rw [out_last V c t h1]
  refine (pay6_apply (bblk V c t) (outsAt1 V c t.val t.isLt).2.2 (outsAt1 V c t.val t.isLt).2.1 p d).trans ?_
  unfold projAt Cert.Spec.proj
  congr 1
  · rw [accM_apply V c t p d, zero_add, h1]
    exact Cert.Spec.sum_range_tiles (fun h => hidA V c (ix2 r h) * dwA V c (ix2 d h)) (fun s => tileM V c (43 * (t.val / 43) + s) p d)
      (fun s => tileM_eq V c ⟨t.val / 43, hq⟩ s p d r hr)
  · refine Finset.sum_congr rfl fun k _ => ?_
    rw [accR_apply V c t p k, zero_add, h1, bblk_apply V c t k d]
    congr 1
    exact Cert.Spec.sum_range_tiles (fun h => hidA V c (ix2 r h) * daA V c (ix2 k h)) (fun s => tileR V c (43 * (t.val / 43) + s) p k)
      (fun s => tileR_eq V c ⟨t.val / 43, hq⟩ s p k r hr)

/-- What the result array ends holding: at (r, d) the projection of row `r` at output unit `d`. -/
private def resultArr (c : Dev nD) : Vec Ideal S4096x4096 .f32 :=
  fun i => projAt V c ⟨(i 0).val, idx2_lt0 i⟩ ⟨(i 1).val, idx2_lt1 i⟩

/-- What a last tile writes back is its block of that array: rows `256·(t/43) … 256·(t/43) + 255`, every output unit. -/
private theorem flushed_eq (c : Dev nD) (t : Fin cfg1.N) (hf : (cfg1.win 4).flush t = true) :
    (dat1 V c).flushed 4 t = ((cfg1.win 4).blk t).view.read (Elt Ideal) (resultArr V c) := by
  have hN : cfg1.N = 688 := N_1
  have ht := t.isLt
  have h1 : t.val % 43 = 42 := (flush1_4 t).mp hf
  obtain ⟨-, -, -, -, -, -, -, -, e0, e1⟩ := idx_facts t
  show (cfg1.win 4).cut (grid1.coords t) ((dat1 V c).after 4 t) = _
  rw [after1_4]
  funext j
  have hj0 : (j 0).val < 256 := (j 0).isLt
  have hj1 : (j 1).val < 4096 := (j 1).isLt
  have hx : (cfg1.win 4).xinj (grid1.coords t) j = ix2 (⟨(j 0).val, hj0⟩ : Fin 256) (⟨(j 1).val, hj1⟩ : Fin 4096) := by
    funext a
    match a with
    | ⟨0, _⟩ => rfl
    | ⟨1, _⟩ => rfl
  rw [View.read_apply]
  show (outsAt1 V c t.val t.isLt).1 ((cfg1.win 4).xinj (grid1.coords t) j) = resultArr V c (((cfg1.win 4).blk t).view.emb j)
  rw [hx]
  refine (out_apply V c t h1 ⟨(j 0).val, hj0⟩ ⟨(j 1).val, hj1⟩ ⟨256 * (t.val / 43) + (j 0).val, by omega⟩ rfl).trans ?_
  unfold resultArr
  congr 1 <;> apply Fin.ext
  · show 256 * (t.val / 43) + (j 0).val = win1_4.index t (0 : Fin 2) * 256 + 1 * (j 0).val
    rw [e0]; omega
  · show (j 1).val = win1_4.index t (1 : Fin 2) * 4096 + 1 * (j 1).val
    rw [e1]; omega

/-- Row `r` lies in the block the last tile of row block `r / 256` writes back. -/
private theorem cover (i : S4096x4096.Idx) :
    ∃ t : Fin cfg1.N, (cfg1.win 4).flush t = true ∧ i ∈ ((cfg1.win 4).blk t).view.set := by
  have hN : cfg1.N = 688 := N_1
  have h0 : (i 0).val < 4096 := (i 0).isLt
  have h1 : (i 1).val < 4096 := (i 1).isLt
  obtain ⟨t, htv⟩ : ∃ t : Fin cfg1.N, t.val = 43 * ((i 0).val / 256) + 42 :=
    ⟨⟨43 * ((i 0).val / 256) + 42, by rw [hN]; omega⟩, rfl⟩
  obtain ⟨-, -, -, -, -, -, -, -, e0, e1⟩ := idx_facts t
  refine ⟨t, (flush1_4 t).mpr (by omega), ?_⟩
  show i ∈ ((View.whole main_v15).slice (win1_4.rect t)).set
  rw [View.set_slice_whole, Rect.mem_set_unit]
  intro a
  match a with
  | ⟨0, _⟩ =>
    show win1_4.index t (0 : Fin 2) * 256 ≤ (i 0).val ∧ (i 0).val < win1_4.index t (0 : Fin 2) * 256 + 256
    rw [e0]; omega
  | ⟨1, _⟩ =>
    show win1_4.index t (1 : Fin 2) * 4096 ≤ (i 1).val ∧ (i 1).val < win1_4.index t (1 : Fin 2) * 4096 + 4096
    rw [e1]; omega

/-- THE OUTPUT ARRAY of region 1 at row `r`, output unit `d`, from the arrays the region finds. -/
theorem out_eq (c : Dev nD) (r d : Fin 4096) :
    (dat1 (F := Ideal) V c).arrAt 4 cfg1.N (ix2 r d)
      = Cert.Spec.proj (fun h : Fin 11008 => (V c main_v14 (ix2 r h) : EReal)) (fun h => (V c main_v4 (ix2 d h) : EReal))
          (fun (k : Fin 16) h => (V c main_v7 (ix2 k h) : EReal)) (fun k => (V c main_v13 (ix2 k d) : EReal)) := by
  refine (congrFun ((dat1 (F := Ideal) V c).arrAt_eq_of_cover 4 (resultArr V c) (flushed_eq V c) cover) (ix2 r d)).trans ?_
  show projAt V c r d = _
  rfl

end Cert.KernelIdeal.Frame

end
-- ==== Proof.IdealHost.lean ====
/-
  The host operations around the two regions, read at an index at the extended reals: the reshape of the activations
  to 4096 rows, the casts (the identity on extended reals), the three transposes, and the closing reshape.
-/
import proofs.«180041_j26250840113719_1_alg».proof.Proof.IdealRun
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- The activations as 4096 rows: row `r` is batch `r / 2048`, position `r % 2048`. -/
theorem V1_v1 (c : Dev nD) (r e : Fin 4096) :
    (V1 m c main_v1 (ix2 r e) : EReal) = m ((c : Thread nD τ).loc main_arg0) (ix3 (⟨r.val / 2048, by have := r.isLt; omega⟩ : Fin 2) (⟨r.val % 2048, Nat.mod_lt _ (by norm_num)⟩ : Fin 2048) e) := by
  show (StableHlo.after hostOps0 (fun b => m (c, b)) (Proc.devRef .tc main_v1) : S4096x4096.Idx → EReal) (ix2 r e) = _
  after_results
  -- the cast after the reshape is the identity on extended reals; a reshape keeps an element's row-major position, and
  -- (⌊r / 2048⌋ · 2048 + r mod 2048) · 4096 + e = r · 4096 + e
  refine shapeCast_apply (s := S2x2048x4096) (t := S4096x4096) _ _ _ _ ?_
  rw [Shape.rowMajor_val_three, Shape.rowMajor_val_two]
  show ((r.val / 2048) * 2048 + r.val % 2048) * 4096 + e.val = r.val * 4096 + e.val
  omega
/-- The six arrays that are only cast: a cast to a narrower float type is the identity on extended reals. -/
theorem V1_v2 (c : Dev nD) (i : S11008x4096.Idx) : (V1 m c main_v2 i : EReal) = m ((c : Thread nD τ).loc main_arg1) i := by
  show (StableHlo.after hostOps0 (fun b => m (c, b)) (Proc.devRef .tc main_v2) : S11008x4096.Idx → EReal) i = _
  after_results; rfl
theorem V1_v3 (c : Dev nD) (i : S11008x4096.Idx) : (V1 m c main_v3 i : EReal) = m ((c : Thread nD τ).loc main_arg2) i := by
  show (StableHlo.after hostOps0 (fun b => m (c, b)) (Proc.devRef .tc main_v3) : S11008x4096.Idx → EReal) i = _
  after_results; rfl
theorem V1_v4 (c : Dev nD) (i : S4096x11008.Idx) : (V1 m c main_v4 i : EReal) = m ((c : Thread nD τ).loc main_arg3) i := by
  show (StableHlo.after hostOps0 (fun b => m (c, b)) (Proc.devRef .tc main_v4) : S4096x11008.Idx → EReal) i = _
  after_results; rfl
theorem V1_v5 (c : Dev nD) (i : S16x4096.Idx) : (V1 m c main_v5 i : EReal) = m ((c : Thread nD τ).loc main_arg4) i := by
  show (StableHlo.after hostOps0 (fun b => m (c, b)) (Proc.devRef .tc main_v5) : S16x4096.Idx → EReal) i = _
  after_results; rfl
theorem V1_v6 (c : Dev nD) (i : S16x4096.Idx) : (V1 m c main_v6 i : EReal) = m ((c : Thread nD τ).loc main_arg6) i := by
  show (StableHlo.after hostOps0 (fun b => m (c, b)) (Proc.devRef .tc main_v6) : S16x4096.Idx → EReal) i = _
  after_results; rfl
theorem V1_v7 (c : Dev nD) (i : S16x11008.Idx) : (V1 m c main_v7 i : EReal) = m ((c : Thread nD τ).loc main_arg8) i := by
  show (StableHlo.after hostOps0 (fun b => m (c, b)) (Proc.devRef .tc main_v7) : S16x11008.Idx → EReal) i = _
  after_results; rfl
/-- The transposed rank-16 factors: a transposed matrix holds at `(k, h)` what the operand holds at `(h, k)`, and the cast
    after the transpose is the identity on extended reals. -/
theorem V1_v9 (c : Dev nD) (k : Fin 16) (h : Fin 11008) : (V1 m c main_v9 (ix2 k h) : EReal) = m ((c : Thread nD τ).loc main_arg5) (ix2 h k) := by
  show (StableHlo.after hostOps0 (fun b => m (c, b)) (Proc.devRef .tc main_v9) : S16x11008.Idx → EReal) (ix2 k h) = _
  after_results
  exact transpose_ix2_apply _ _ k h
theorem V1_v11 (c : Dev nD) (k : Fin 16) (h : Fin 11008) : (V1 m c main_v11 (ix2 k h) : EReal) = m ((c : Thread nD τ).loc main_arg7) (ix2 h k) := by
  show (StableHlo.after hostOps0 (fun b => m (c, b)) (Proc.devRef .tc main_v11) : S16x11008.Idx → EReal) (ix2 k h) = _
  after_results
  exact transpose_ix2_apply _ _ k h
theorem V1_v13 (c : Dev nD) (k : Fin 16) (d : Fin 4096) : (V1 m c main_v13 (ix2 k d) : EReal) = m ((c : Thread nD τ).loc main_arg9) (ix2 d k) := by
  show (StableHlo.after hostOps0 (fun b => m (c, b)) (Proc.devRef .tc main_v13) : S16x4096.Idx → EReal) (ix2 k d) = _
  after_results
  exact transpose_ix2_apply _ _ k d
/-- The closing reshape: batch `b`, position `s` is row `2048·b + s` of region 1's output array. -/
theorem W4_v16 (c : Dev nD) (b : Fin 2) (s : Fin 2048) (d : Fin 4096) :
    (W4 m c (Proc.devRef .tc main_v16) (ix3 b s d) : EReal)
      = W3 m c (Proc.devRef .tc main_v15) (ix2 (⟨2048 * b.val + s.val, by have := b.isLt; have := s.isLt; omega⟩ : Fin 4096) d) := by
  show (StableHlo.after hostOps2 (W3 m c) (Proc.devRef .tc main_v16) : S2x2048x4096.Idx → EReal) (ix3 b s d) = _
  after_results
  -- a reshape keeps an element's row-major position: (b, s, d) of 2 × 2048 × 4096 sits at (b · 2048 + s) · 4096 + d,
  -- which is where row 2048 · b + s, column d of 4096 × 4096 sits
  refine shapeCast_apply (s := S4096x4096) (t := S2x2048x4096) _ _ _ _ ?_
  rw [Shape.rowMajor_val_three, Shape.rowMajor_val_two]
  show (2048 * b.val + s.val) * 4096 + d.val = (b.val * 2048 + s.val) * 4096 + d.val
  omega

end Cert.KernelIdeal.Frame

end
-- ==== Proof.IdealValue.lean ====
/-
  The idealized kernel's result as a function of the argument arrays, at the extended reals: the closing reshape of
  region 1's output array, whose rows are the down projection of the hidden rows, which are region 0's output array,
  whose rows are the gated projections of the activations' rows; the arrays each region finds are the argument arrays
  through the casts (the identity here), the row reshape and the three transposes.
-/
import proofs.«180041_j26250840113719_1_alg».proof.Proof.IdealValue0
import proofs.«180041_j26250840113719_1_alg».proof.Proof.IdealValue1
import proofs.«180041_j26250840113719_1_alg».proof.Proof.IdealHost

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

/-- Region 1 finds the arrays region 0 did not write as region 0 found them. -/
theorem V2_of_V1 (c : Dev nD) (b : Ref sig .tc) (hb : ∀ w, Pipeline.arrRef spec0 w ≠ b) : V2 m c b = V1 m c b :=
  W2_of_ne m c b hb

/-- The hidden array region 1 finds, at row `r` and hidden unit `h`. -/
theorem V2_v14 (c : Dev nD) (r : Fin 4096) (h : Fin 11008) :
    (V2 m c main_v14 (ix2 r h) : EReal)
      = Cert.Spec.hiddenAt (fun e => (m ((c : Thread nD τ).loc main_arg0)) (ix3 (⟨r.val / 2048, by have := r.isLt; omega⟩ : Fin 2) (⟨r.val % 2048, Nat.mod_lt _ (by norm_num)⟩ : Fin 2048) e))
          (m ((c : Thread nD τ).loc main_arg1)) (m ((c : Thread nD τ).loc main_arg2)) (m ((c : Thread nD τ).loc main_arg4)) (m ((c : Thread nD τ).loc main_arg6)) (m ((c : Thread nD τ).loc main_arg5)) (m ((c : Thread nD τ).loc main_arg7)) h := by
  have e : V2 m c main_v14 = (dat0 (F := Ideal) (V1 m) c).arrAt 7 cfg0.N := W2_arr m c 7
  rw [e, hidden_eq]
  unfold Cert.Spec.hiddenAt
  have e1 : (fun e : Fin 4096 => (V1 m c main_v1 (ix2 r e) : EReal)) = fun e => (m ((c : Thread nD τ).loc main_arg0)) (ix3 (⟨r.val / 2048, by have := r.isLt; omega⟩ : Fin 2) (⟨r.val % 2048, Nat.mod_lt _ (by norm_num)⟩ : Fin 2048) e) :=
    funext fun e => V1_v1 m c r e
  have e2 : (fun e : Fin 4096 => (V1 m c main_v2 (ix2 h e) : EReal)) = fun e => (m ((c : Thread nD τ).loc main_arg1)) (ix2 h e) := funext fun e => V1_v2 m c _
  have e3 : (fun e : Fin 4096 => (V1 m c main_v3 (ix2 h e) : EReal)) = fun e => (m ((c : Thread nD τ).loc main_arg2)) (ix2 h e) := funext fun e => V1_v3 m c _
  have e5 : (fun (k : Fin 16) (e : Fin 4096) => (V1 m c main_v5 (ix2 k e) : EReal)) = fun k e => (m ((c : Thread nD τ).loc main_arg4)) (ix2 k e) := funext fun k => funext fun e => V1_v5 m c _
  have e6 : (fun (k : Fin 16) (e : Fin 4096) => (V1 m c main_v6 (ix2 k e) : EReal)) = fun k e => (m ((c : Thread nD τ).loc main_arg6)) (ix2 k e) := funext fun k => funext fun e => V1_v6 m c _
  have e9 : (fun k : Fin 16 => (V1 m c main_v9 (ix2 k h) : EReal)) = fun k => (m ((c : Thread nD τ).loc main_arg5)) (ix2 h k) := funext fun k => V1_v9 m c k h
  have e11 : (fun k : Fin 16 => (V1 m c main_v11 (ix2 k h) : EReal)) = fun k => (m ((c : Thread nD τ).loc main_arg7)) (ix2 h k) := funext fun k => V1_v11 m c k h
  rw [e1, e2, e3, e5, e6, e9, e11]

/-- THE KERNEL'S RESULT at batch `b`, position `s`, output unit `d` is the specification's function of the arguments. -/
theorem kernel_eq (c : Dev nD) (b : Fin 2) (s : Fin 2048) (d : Fin 4096) :
    (W4 m c (Proc.devRef .tc main_v16) (ix3 b s d) : EReal)
      = Cert.Spec.Gat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b s d := by
  rw [W4_v16]
  have e : W3 m c (Proc.devRef .tc main_v15) = (dat1 (F := Ideal) (V2 m) c).arrAt 4 cfg1.N := W3_arr m c 4
  rw [e, out_eq]
  unfold Cert.Spec.Gat Cert.Spec.outAt
  have hb : (⟨(2048 * b.val + s.val) / 2048, by have := b.isLt; have := s.isLt; omega⟩ : Fin 2) = b := Fin.ext (by have := s.isLt; show (2048 * b.val + s.val) / 2048 = b.val; omega)
  have hs : (⟨(2048 * b.val + s.val) % 2048, Nat.mod_lt _ (by norm_num)⟩ : Fin 2048) = s := Fin.ext (by have := s.isLt; show (2048 * b.val + s.val) % 2048 = s.val; omega)
  have e14 : (fun h : Fin 11008 => (V2 m c main_v14 (ix2 (⟨2048 * b.val + s.val, by have := b.isLt; have := s.isLt; omega⟩ : Fin 4096) h) : EReal))
      = Cert.Spec.hiddenAt (fun e => (m ((c : Thread nD τ).loc main_arg0)) (ix3 b s e)) (m ((c : Thread nD τ).loc main_arg1)) (m ((c : Thread nD τ).loc main_arg2)) (m ((c : Thread nD τ).loc main_arg4)) (m ((c : Thread nD τ).loc main_arg6)) (m ((c : Thread nD τ).loc main_arg5)) (m ((c : Thread nD τ).loc main_arg7)) :=
    funext fun h => by rw [V2_v14]; simp only [hb, hs]
  have e4 : (fun h : Fin 11008 => (V2 m c main_v4 (ix2 d h) : EReal)) = fun h => (m ((c : Thread nD τ).loc main_arg3)) (ix2 d h) :=
    funext fun h => (congrFun (V2_of_V1 m c main_v4 (by decide)) _).trans (V1_v4 m c _)
  have e7 : (fun (k : Fin 16) (h : Fin 11008) => (V2 m c main_v7 (ix2 k h) : EReal)) = fun k h => (m ((c : Thread nD τ).loc main_arg8)) (ix2 k h) :=
    funext fun k => funext fun h => (congrFun (V2_of_V1 m c main_v7 (by decide)) _).trans (V1_v7 m c _)
  have e13 : (fun k : Fin 16 => (V2 m c main_v13 (ix2 k d) : EReal)) = fun k => (m ((c : Thread nD τ).loc main_arg9)) (ix2 d k) :=
    funext fun k => (congrFun (V2_of_V1 m c main_v13 (by decide)) _).trans (V1_v13 m c k d)
  rw [e14, e4, e7, e13]

end Cert.KernelIdeal.Frame

end
-- ==== Proof.RefValue.lean ====
/-
  The reference's result as a function of the argument arrays, index by index, at the extended reals: its
  contractions are plain sums, its `1 / (1 + e^(−g))` is the logistic function, and its factors 1.0 change nothing.
-/
import proofs.«180041_j26250840113719_1_alg».proof.Proof.Gen.ReferenceIdeal.Run
import proofs.«180041_j26250840113719_1_alg».proof.Proof.Gen.ReferenceIdeal.Read
import proofs.«180041_j26250840113719_1_alg».proof.Proof.Spec

set_option maxRecDepth 16384

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.ShloMosaic.ValueIdx Idealize.SL.Sem

/-- The word of the literal 1.0 denotes the real number one. -/
private theorem one_word : Ideal.ofBits .f32 0x3F800000#32 = 1 := by
  simp [Ideal.ofBits, Ideal.ieee, -EReal.coe_mul]; norm_num

/-! ### Where each contraction reads its operands

A contraction of the last axis of a rank-3 array against the last axis of a rank-2 one reads, for the result at
`(b, s, j)` and the summation index `k`, the left operand at `(b, s, k)` and the right operand at `(j, k)`. -/

private theorem lidx0 (b : Fin 2) (s : Fin 2048) (h : Fin 11008) (k : Fin 4096) : lidx_main_v0 (ix3 b s h) k = ix3 b s k :=
  funext fun a => Fin.ext (by match a with | ⟨0, _⟩ => rfl | ⟨1, _⟩ => rfl | ⟨2, _⟩ => rfl)
private theorem ridx0 (b : Fin 2) (s : Fin 2048) (h : Fin 11008) (k : Fin 4096) : ridx_main_v0 (ix3 b s h) k = ix2 h k :=
  funext fun a => Fin.ext (by match a with | ⟨0, _⟩ => rfl | ⟨1, _⟩ => rfl)
private theorem lidx1 (b : Fin 2) (s : Fin 2048) (r : Fin 16) (k : Fin 4096) : lidx_main_v1 (ix3 b s r) k = ix3 b s k :=
  funext fun a => Fin.ext (by match a with | ⟨0, _⟩ => rfl | ⟨1, _⟩ => rfl | ⟨2, _⟩ => rfl)
private theorem ridx1 (b : Fin 2) (s : Fin 2048) (r : Fin 16) (k : Fin 4096) : ridx_main_v1 (ix3 b s r) k = ix2 r k :=
  funext fun a => Fin.ext (by match a with | ⟨0, _⟩ => rfl | ⟨1, _⟩ => rfl)
private theorem lidx2 (b : Fin 2) (s : Fin 2048) (h : Fin 11008) (k : Fin 16) : lidx_main_v2 (ix3 b s h) k = ix3 b s k :=
  funext fun a => Fin.ext (by match a with | ⟨0, _⟩ => rfl | ⟨1, _⟩ => rfl | ⟨2, _⟩ => rfl)
private theorem ridx2 (b : Fin 2) (s : Fin 2048) (h : Fin 11008) (k : Fin 16) : ridx_main_v2 (ix3 b s h) k = ix2 h k :=
  funext fun a => Fin.ext (by match a with | ⟨0, _⟩ => rfl | ⟨1, _⟩ => rfl)
private theorem lidx14 (b : Fin 2) (s : Fin 2048) (d : Fin 4096) (k : Fin 11008) : lidx_main_v14 (ix3 b s d) k = ix3 b s k :=
  funext fun a => Fin.ext (by match a with | ⟨0, _⟩ => rfl | ⟨1, _⟩ => rfl | ⟨2, _⟩ => rfl)
private theorem ridx14 (b : Fin 2) (s : Fin 2048) (d : Fin 4096) (k : Fin 11008) : ridx_main_v14 (ix3 b s d) k = ix2 d k :=
  funext fun a => Fin.ext (by match a with | ⟨0, _⟩ => rfl | ⟨1, _⟩ => rfl)
private theorem lidx15 (b : Fin 2) (s : Fin 2048) (r : Fin 16) (k : Fin 11008) : lidx_main_v15 (ix3 b s r) k = ix3 b s k :=
  funext fun a => Fin.ext (by match a with | ⟨0, _⟩ => rfl | ⟨1, _⟩ => rfl | ⟨2, _⟩ => rfl)
private theorem ridx15 (b : Fin 2) (s : Fin 2048) (r : Fin 16) (k : Fin 11008) : ridx_main_v15 (ix3 b s r) k = ix2 r k :=
  funext fun a => Fin.ext (by match a with | ⟨0, _⟩ => rfl | ⟨1, _⟩ => rfl)
private theorem lidx16 (b : Fin 2) (s : Fin 2048) (d : Fin 4096) (k : Fin 16) : lidx_main_v16 (ix3 b s d) k = ix3 b s k :=
  funext fun a => Fin.ext (by match a with | ⟨0, _⟩ => rfl | ⟨1, _⟩ => rfl | ⟨2, _⟩ => rfl)
private theorem ridx16 (b : Fin 2) (s : Fin 2048) (d : Fin 4096) (k : Fin 16) : ridx_main_v16 (ix3 b s d) k = ix2 d k :=
  funext fun a => Fin.ext (by match a with | ⟨0, _⟩ => rfl | ⟨1, _⟩ => rfl)

/-! ### The stages -/

/-- A projection into the hidden units with its low-rank correction, at `(b, s, h)`: the dense contraction plus the
    rank-16 one, whose factor 1.0 changes nothing. -/
private theorem proj_in (x : (⟨S2x2048x4096, .f32⟩ : BufTy).Contents (Elt Ideal)) (w : (⟨S11008x4096, .f32⟩ : BufTy).Contents (Elt Ideal))
    (a : (⟨S16x4096, .f32⟩ : BufTy).Contents (Elt Ideal)) (lb : (⟨S11008x16, .f32⟩ : BufTy).Contents (Elt Ideal))
    (b : Fin 2) (s : Fin 2048) (h : Fin 11008) :
    (val_main_v5 (F := Ideal) x w a lb (ix3 b s h) : EReal)
      = Cert.Spec.proj (fun e => x (ix3 b s e)) (fun e => w (ix2 h e)) (fun k e => a (ix2 k e)) (fun k => lb (ix2 h k)) := by
  simp only [val_main_v5_apply, val_main_v0_apply, val_main_v4_apply, val_main_v2_apply, val_main_v3_apply, val_main_cst_apply,
    lidx2, ridx2, val_main_v1_apply, lidx0, ridx0, lidx1, ridx1, Ideal.addf_def, Ideal.mulf_def, Ideal.ofBits_def, one_word, mul_one,
    Cert.Spec.proj]

/-- The up projection is the same function of its own three arrays as the gate projection. -/
private theorem proj_in_up (x : (⟨S2x2048x4096, .f32⟩ : BufTy).Contents (Elt Ideal)) (w : (⟨S11008x4096, .f32⟩ : BufTy).Contents (Elt Ideal))
    (a : (⟨S16x4096, .f32⟩ : BufTy).Contents (Elt Ideal)) (lb : (⟨S11008x16, .f32⟩ : BufTy).Contents (Elt Ideal))
    (b : Fin 2) (s : Fin 2048) (h : Fin 11008) :
    (val_main_v11 (F := Ideal) x w a lb (ix3 b s h) : EReal)
      = Cert.Spec.proj (fun e => x (ix3 b s e)) (fun e => w (ix2 h e)) (fun k e => a (ix2 k e)) (fun k => lb (ix2 h k)) :=
  proj_in x w a lb b s h

/-- The hidden activation at `(b, s, h)`: the gate times `1 / (1 + e^(−gate))`, which is the logistic function of the
    gate by its definition, times the up projection. -/
private theorem hidden_at (x : (⟨S2x2048x4096, .f32⟩ : BufTy).Contents (Elt Ideal)) (gw uw : (⟨S11008x4096, .f32⟩ : BufTy).Contents (Elt Ideal))
    (ga : (⟨S16x4096, .f32⟩ : BufTy).Contents (Elt Ideal)) (gb : (⟨S11008x16, .f32⟩ : BufTy).Contents (Elt Ideal))
    (ua : (⟨S16x4096, .f32⟩ : BufTy).Contents (Elt Ideal)) (ub : (⟨S11008x16, .f32⟩ : BufTy).Contents (Elt Ideal))
    (b : Fin 2) (s : Fin 2048) (h : Fin 11008) :
    (val_main_v13 (F := Ideal) x gw uw ga gb ua ub (ix3 b s h) : EReal)
      = Cert.Spec.hiddenAt (fun e => x (ix3 b s e)) gw uw ga ua gb ub h := by
  simp only [val_main_v13_apply, val_main_v12_apply, val_main_call0_v5_apply, val_main_call0_v4_apply, val_main_call0_cst_0_apply,
    val_main_call0_v3_apply, val_main_call0_v2_apply, val_main_call0_cst_apply, val_main_call0_v1_apply, val_main_call0_v0_apply,
    proj_in, proj_in_up, Ideal.mulf_def, Ideal.addf_def, Ideal.hostDivf_def, Ideal.hostUnary_exp_def, Ideal.hostNegf_def,
    Ideal.negf_def, Ideal.ofBits_def, one_word, Cert.Spec.hiddenAt, Cert.Spec.swiglu, Ideal.logistic]

/-- THE REFERENCE'S RESULT at batch `b`, position `s`, output unit `d` is the specification's function of the arguments. -/
theorem ref_eq (m : (ℓ : Loc nD τ sig) → Buf (Elt Ideal) ℓ) (c : Dev nD) (b : Fin 2) (s : Fin 2048) (d : Fin 4096) :
    (res_main_v19 (F := Ideal) m c (ix3 b s d) : EReal)
      = Cert.Spec.Gat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) b s d := by
  rw [val_main_v19_eq]
  simp only [val_main_v19_apply, val_main_v14_apply, val_main_v18_apply, val_main_v16_apply, val_main_v17_apply, val_main_cst_1_apply,
    lidx16, ridx16, val_main_v15_apply, lidx14, ridx14, lidx15, ridx15, hidden_at, Ideal.addf_def, Ideal.mulf_def, Ideal.ofBits_def,
    one_word, mul_one, Cert.Spec.Gat, Cert.Spec.outAt, Cert.Spec.proj]

end Cert.ReferenceIdeal.RefValue

end
-- ==== Proof.lean ====
/-
  The certificate of a gated two-layer map with low-rank corrections, computed by two tiled kernels, against its
  plain reference.

  The kernel program reshapes the 2×2048×4096 activations to 4096 rows, casts its operands and transposes the three
  rank-16 factors on the host, then runs two tiled regions. Region 0 computes, per 256×256 block of the hidden
  array, the gate and up projections with their rank-16 corrections, the gate through SiLU, and their product.
  Region 1 computes, per 256-row block of the output, the down projection with its rank-16 correction, summing over
  the 11008 hidden units 256 at a time in two accumulators carried from one grid point to the next. The reference
  computes the same three projections as whole contractions.

  Over the extended reals the two results are one function of the arguments: a cast is the identity, a matrix product
  into a zero accumulator and a host contraction are the same sum, the kernel's logistic and the reference's
  1 / (1 + e^(−g)) are one function by definition, multiplying by 1 changes nothing, and a sum over the hidden units
  may be taken tile by tile since addition of extended reals is commutative and associative. No finiteness of the
  inputs is used. The frames: each program runs to the end without a fault and leaves its arguments as launched —
  for the kernel program at words and at extended reals alike, by running each region's body at a generic grid point
  (region 1 in its three cases: first, middle and last tile) under an invariant that carries the two accumulators.
  The ideal pass rewrote nothing, so nothing is owed for the idealization.
-/
import proofs.«180041_j26250840113719_1_alg».proof.Defs
import proofs.«180041_j26250840113719_1_alg».proof.Proof.Gen.Kernel
import proofs.«180041_j26250840113719_1_alg».proof.Proof.Gen.KernelIdeal
import proofs.«180041_j26250840113719_1_alg».proof.Proof.Gen.ReferenceIdeal
import proofs.«180041_j26250840113719_1_alg».proof.Proof.Gen.Pre_finite_inputs
import proofs.«180041_j26250840113719_1_alg».proof.Proof.BitsRun
import proofs.«180041_j26250840113719_1_alg».proof.Proof.IdealRun
import proofs.«180041_j26250840113719_1_alg».proof.Proof.IdealValue
import proofs.«180041_j26250840113719_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs, and its arguments end as launched. -/
theorem frame_kernel : Cert.frame_Kernel := fun m ρ _ => Cert.Kernel.Frame.frame m ρ

/-- The same for the kernel program read at the extended reals. -/
theorem frame_kernelIdeal : Cert.frame_KernelIdeal := fun m ρ _ => Cert.KernelIdeal.Frame.frame m ρ

/-- The reference runs, and its arguments end as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, with equal results: each result entry is the
    specification's function of the arguments at its batch, position and output unit. -/
theorem algebraic : Cert.algebraic_KernelIdeal_ReferenceIdeal := by
  intro m ρ m' ρ' _ hagree
  refine ⟨fun c => Cert.KernelIdeal.Frame.W4 m c (Proc.devRef .tc Cert.KernelIdeal.main_v16), Cert.KernelIdeal.Frame.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  funext i
  obtain ⟨b, s, d, rfl⟩ : ∃ (b : Fin 2) (s : Fin 2048) (d : Fin 4096), i = ix3 b s d := ⟨i 0, i 1, i 2, eq_ix3 i⟩
  rw [Cert.ReferenceIdeal.RefValue.ref_eq, h0, h1, h2, h3, h4, h5, h6, h7, h8, h9]
  exact (Cert.KernelIdeal.Frame.kernel_eq m c b s d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
